-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S640000x128 : Shape := ⟨2, ![640000, 128]⟩
abbrev S640000 : Shape := ⟨1, ![640000]⟩
abbrev S128x384 : Shape := ⟨2, ![128, 384]⟩
abbrev S128 : Shape := ⟨1, ![128]⟩
abbrev S128x256 : Shape := ⟨2, ![128, 256]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S128x384 : S_.BroadcastsInDim S128x384 (![] : Fin 0 → Fin S128x384.rank)
  reducesTo_S128x384_S_d0_1 : S128x384.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_

variable [Facts]

def fn_part1 {F : FTy → Type} [FloatOps F] (main_arg6 : FVec F S128x256 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg6
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S40000x128 .f32) (main_arg1 : FVec F S640000x128 .f32) (main_arg2 : IVec S640000 32) (main_arg3 : IVec S640000 32) (main_arg4 : FVec F S128x384 .f32) (main_arg5 : FVec F S128 .f32) (main_arg6 : FVec F S128x256 .f32) (main_arg7 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S128x384 .f32 := Host.absf main_arg4
  let main_cst_2 : FVec F S_ .f32 := constant S_ .f32 0x7F800000#32
  let main_v10 : FVec F S128x384 .f32 := broadcastInDim S128x384 ![] bcast_S_S128x384 main_cst_2
  let main_v11 : IVec S128x384 1 := cmpf .olt main_v9 main_v10
  let main_c_3 : IVec S_ 1 := constantI S_ 1 1#1
  let main_v12 : IVec S_ 1 := (fun x v => Host.reduce IntOp.andi x v reducesTo_S128x384_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S40000x128 : Shape := ⟨2, ![40000, 128]⟩
abbrev S640000x128 : Shape := ⟨2, ![640000, 128]⟩
abbrev S640000 : Shape := ⟨1, ![640000]⟩
abbrev S128x384 : Shape := ⟨2, ![128, 384]⟩
abbrev S128 : Shape := ⟨1, ![128]⟩
abbrev S128x256 : Shape := ⟨2, ![128, 256]⟩
abbrev S_ : Shape := ⟨0, ![]⟩
abbrev S640000x1 : Shape := ⟨2, ![640000, 1]⟩
abbrev S384x128 : Shape := ⟨2, ![384, 128]⟩
abbrev S128x128 : Shape := ⟨2, ![128, 128]⟩
abbrev S1x128 : Shape := ⟨2, ![1, 128]⟩
abbrev S3200x128 : Shape := ⟨2, ![3200, 128]⟩
abbrev S40000 : Shape := ⟨1, ![40000]⟩
abbrev S40000x1 : Shape := ⟨2, ![40000, 1]⟩
abbrev S256x128 : Shape := ⟨2, ![256, 128]⟩
abbrev S5000x128 : Shape := ⟨2, ![5000, 128]⟩
abbrev S5000x1 : Shape := ⟨2, ![5000, 1]⟩

abbrev nBuf : Space → Nat
  | .hbm => 48
  | .vmem => 23
  | .smem => 0
  | _ => 0

abbrev bufTy : (tb : Table) → Fin (tcTables nBuf tb) → BufTy
  | .hbm, ⟨0, _⟩ => ⟨S40000x128, .f32⟩
  | .hbm, ⟨1, _⟩ => ⟨S640000x128, .f32⟩
  | .hbm, ⟨2, _⟩ => ⟨S640000, .i32⟩
  | .hbm, ⟨3, _⟩ => ⟨S640000, .i32⟩
  | .hbm, ⟨4, _⟩ => ⟨S128x384, .f32⟩
  | .hbm, ⟨5, _⟩ => ⟨S128, .f32⟩
  | .hbm, ⟨6, _⟩ => ⟨S128x256, .f32⟩
  | .hbm, ⟨7, _⟩ => ⟨S128, .f32⟩
  | .hbm, ⟨8, _⟩ => ⟨S_, .i32⟩
  | .hbm, ⟨9, _⟩ => ⟨S640000, .i32⟩
  | .hbm, ⟨10, _⟩ => ⟨S640000, .i1⟩
  | .hbm, ⟨11, _⟩ => ⟨S_, .i32⟩
  | .hbm, ⟨12, _⟩ => ⟨S640000, .i32⟩
  | .hbm, ⟨13, _⟩ => ⟨S640000, .i32⟩
  | .hbm, ⟨14, _⟩ => ⟨S640000, .i32⟩
  | .hbm, ⟨15, _⟩ => ⟨S640000x1, .i32⟩
  | .hbm, ⟨16, _⟩ => ⟨S640000x128, .f32⟩
  | .hbm, ⟨17, _⟩ => ⟨S_, .i32⟩
  | .hbm, ⟨18, _⟩ => ⟨S640000, .i32⟩
  | .hbm, ⟨19, _⟩ => ⟨S640000, .i1⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S640000, .i32⟩
  | .hbm, ⟨24, _⟩ => ⟨S640000x1, .i32⟩
  | .hbm, ⟨25, _⟩ => ⟨S640000x128, .f32⟩
  | .hbm, ⟨26, _⟩ => ⟨S384x128, .f32⟩
  | .hbm, ⟨27, _⟩ => ⟨S128x128, .f32⟩
  | .hbm, ⟨28, _⟩ => ⟨S128x128, .f32⟩
  | .hbm, ⟨29, _⟩ => ⟨S128x128, .f32⟩
  | .hbm, ⟨30, _⟩ => ⟨S1x128, .f32⟩
  | .hbm, ⟨31, _⟩ => ⟨S640000x128, .f32⟩
  | .hbm, ⟨32, _⟩ => ⟨S_, .f32⟩
  | .hbm, ⟨33, _⟩ => ⟨S40000x128, .f32⟩
  | .hbm, ⟨34, _⟩ => ⟨S640000x1, .i32⟩
  | .hbm, ⟨35, _⟩ => ⟨S40000x128, .f32⟩
  | .hbm, ⟨36, _⟩ => ⟨S_, .f32⟩
  | .hbm, ⟨37, _⟩ => ⟨S640000, .f32⟩
  | .hbm, ⟨38, _⟩ => ⟨S_, .f32⟩
  | .hbm, ⟨39, _⟩ => ⟨S40000, .f32⟩
  | .hbm, ⟨40, _⟩ => ⟨S640000x1, .i32⟩
  | .hbm, ⟨41, _⟩ => ⟨S40000, .f32⟩
  | .hbm, ⟨42, _⟩ => ⟨S40000x1, .f32⟩
  | .hbm, ⟨43, _⟩ => ⟨S256x128, .f32⟩
  | .hbm, ⟨44, _⟩ => ⟨S128x128, .f32⟩
  | .hbm, ⟨45, _⟩ => ⟨S128x128, .f32⟩
  | .hbm, ⟨46, _⟩ => ⟨S1x128, .f32⟩
  | .hbm, ⟨47, _⟩ => ⟨S40000x128, .f32⟩
  | .local _ .vmem, ⟨0, _⟩ => ⟨S3200x128, .f32⟩
  | .local _ .vmem, ⟨1, _⟩ => ⟨S3200x128, .f32⟩
  | .local _ .vmem, ⟨2, _⟩ => ⟨S3200x128, .f32⟩
  | .local _ .vmem, ⟨3, _⟩ => ⟨S3200x128, .f32⟩
  | .local _ .vmem, ⟨4, _⟩ => ⟨S3200x128, .f32⟩
  | .local _ .vmem, ⟨5, _⟩ => ⟨S3200x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S3200x128, .f32⟩
  | .local _ .vmem, ⟨11, _⟩ => ⟨S3200x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S128x128, .f32⟩
  | .local _ .vmem, ⟨19, _⟩ => ⟨S128x128, .f32⟩
  | .local _ .vmem, ⟨20, _⟩ => ⟨S1x128, .f32⟩
  | .local _ .vmem, ⟨21, _⟩ => ⟨S5000x128, .f32⟩
  | .local _ .vmem, ⟨22, _⟩ => ⟨S5000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg6_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem6_1 : DmaSem sig := 22

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3200x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  transposes_S128x384_S384x128_1_0 : S128x384.Transposes [1, 0] S384x128
  slices_S384x128_S128x128_0_0 : S384x128.Slices ![0, 0] S128x128
  slices_S384x128_S128x128_128_0 : S384x128.Slices ![128, 0] S128x128
  slices_S384x128_S128x128_256_0 : S384x128.Slices ![256, 0] S128x128
  shapeCasts_S128_S1x128 : S128.ShapeCasts S1x128
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3200x128 : S1x128.Broadcasts S3200x128
  bcast_S_S40000x128 : S_.BroadcastsInDim S40000x128 (![] : Fin 0 → Fin S40000x128.rank)
  bcast_S_S40000 : S_.BroadcastsInDim S40000 (![] : Fin 0 → Fin S40000.rank)
  shapeCasts_S40000_S40000x1 : S40000.ShapeCasts S40000x1
  transposes_S128x256_S256x128_1_0 : S128x256.Transposes [1, 0] S256x128
  slices_S256x128_S128x128_0_0 : S256x128.Slices ![0, 0] S128x128
  slices_S256x128_S128x128_128_0 : S256x128.Slices ![128, 0] S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  broadcasts_S1x128_S5000x128 : S1x128.Broadcasts S5000x128
  gather_S40000x128_S640000x1_S640000x128_1_0_n_n_0_1_1128_wf : GatherDims.WF S40000x128 S640000x1 S640000x128 [1] [0] [] [0] [] 1 ![1, 128]
  dot_S3200x128_S128x128_S3200x128_1_0_0_1_n_n_wf : DotDims.WF S3200x128 S128x128 S3200x128 [1] [0] [0] [1] [] []
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x128.size a ≤ S640000x128.size a
  hwx0_0 : ∀ i : grid0.Coords, EltTy.bits .f32 = 32 ∨ (Rect.block (s := S640000x128) S3200x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x128.size a ≤ S640000x128.size a
  hwx0_1 : ∀ i : grid0.Coords, EltTy.bits .f32 = 32 ∨ (Rect.block (s := S640000x128) S3200x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x128.size a ≤ S640000x128.size a
  hwx0_2 : ∀ i : grid0.Coords, EltTy.bits .f32 = 32 ∨ (Rect.block (s := S640000x128) S3200x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S3200x128.size a ≤ S640000x128.size a
  hwx0_7 : ∀ i : grid0.Coords, EltTy.bits .f32 = 32 ∨ (Rect.block (s := S640000x128) S3200x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S40000x128.size a
  hwx1_0 : ∀ i : grid1.Coords, EltTy.bits .f32 = 32 ∨ (Rect.block (s := S40000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S40000x128.size a
  hwx1_1 : ∀ i : grid1.Coords, EltTy.bits .f32 = 32 ∨ (Rect.block (s := S40000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S40000x1.size a
  hwx1_2 : ∀ i : grid1.Coords, EltTy.bits .f32 = 32 ∨ (Rect.block (s := S40000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S40000x128.size a
  hwx1_6 : ∀ i : grid1.Coords, EltTy.bits .f32 = 32 ∨ (Rect.block (s := S40000x128) S5000x128.size (cc1_transform_6 i) (hinb1_6 i)).WholeWords (EltTy.packing .f32)

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S3200x128_S128x128_S3200x128_1_0_0_1_n_n : DotDims S3200x128 S128x128 S3200x128 where
  lhsContracting := [1]
  rhsContracting := [0]
  lhsNonContracting := [0]
  rhsNonContracting := [1]
  lhsBatch := []
  rhsBatch := []
  wf := dot_S3200x128_S128x128_S3200x128_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v6) S3200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S3200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S3200x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S3200x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S40000x128 : Shape := ⟨2, ![40000, 128]⟩
abbrev S640000x128 : Shape := ⟨2, ![640000, 128]⟩
abbrev S640000 : Shape := ⟨1, ![640000]⟩
abbrev S128x384 : Shape := ⟨2, ![128, 384]⟩
abbrev S128 : Shape := ⟨1, ![128]⟩
abbrev S128x256 : Shape := ⟨2, ![128, 256]⟩
abbrev S_ : Shape := ⟨0, ![]⟩
abbrev S640000x1 : Shape := ⟨2, ![640000, 1]⟩
abbrev S640000x384 : Shape := ⟨2, ![640000, 384]⟩
abbrev S384x128 : Shape := ⟨2, ![384, 128]⟩
abbrev S1x128 : Shape := ⟨2, ![1, 128]⟩
abbrev S40000 : Shape := ⟨1, ![40000]⟩
abbrev S40000x1 : Shape := ⟨2, ![40000, 1]⟩
abbrev S40000x256 : Shape := ⟨2, ![40000, 256]⟩
abbrev S256x128 : Shape := ⟨2, ![256, 128]⟩

abbrev nBuf : Space → Nat
  | .hbm => 63
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S640000x128, .f32⟩
  | .hbm, ⟨2, _⟩ => ⟨S640000, .i32⟩
  | .hbm, ⟨3, _⟩ => ⟨S640000, .i32⟩
  | .hbm, ⟨4, _⟩ => ⟨S128x384, .f32⟩
  | .hbm, ⟨5, _⟩ => ⟨S128, .f32⟩
  | .hbm, ⟨6, _⟩ => ⟨S128x256, .f32⟩
  | .hbm, ⟨7, _⟩ => ⟨S128, .f32⟩
  | .hbm, ⟨8, _⟩ => ⟨S_, .i32⟩
  | .hbm, ⟨9, _⟩ => ⟨S640000, .i32⟩
  | .hbm, ⟨10, _⟩ => ⟨S640000, .i1⟩
  | .hbm, ⟨11, _⟩ => ⟨S_, .i32⟩
  | .hbm, ⟨12, _⟩ => ⟨S640000, .i32⟩
  | .hbm, ⟨13, _⟩ => ⟨S640000, .i32⟩
  | .hbm, ⟨14, _⟩ => ⟨S640000, .i32⟩
  | .hbm, ⟨15, _⟩ => ⟨S640000x1, .i32⟩
  | .hbm, ⟨16, _⟩ => ⟨S640000x128, .f32⟩
  | .hbm, ⟨17, _⟩ => ⟨S_, .i32⟩
  | .hbm, ⟨18, _⟩ => ⟨S640000, .i32⟩
  | .hbm, ⟨19, _⟩ => ⟨S640000, .i1⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S640000, .i32⟩
  | .hbm, ⟨24, _⟩ => ⟨S640000x1, .i32⟩
  | .hbm, ⟨25, _⟩ => ⟨S640000x128, .f32⟩
  | .hbm, ⟨26, _⟩ => ⟨S640000x384, .f32⟩
  | .hbm, ⟨27, _⟩ => ⟨S384x128, .f32⟩
  | .hbm, ⟨28, _⟩ => ⟨S640000x128, .f32⟩
  | .hbm, ⟨29, _⟩ => ⟨S1x128, .f32⟩
  | .hbm, ⟨30, _⟩ => ⟨S640000x128, .f32⟩
  | .hbm, ⟨31, _⟩ => ⟨S640000x128, .f32⟩
  | .hbm, ⟨32, _⟩ => ⟨S_, .f32⟩
  | .hbm, ⟨33, _⟩ => ⟨S40000x128, .f32⟩
  | .hbm, ⟨34, _⟩ => ⟨S640000x1, .i32⟩
  | .hbm, ⟨35, _⟩ => ⟨S40000x128, .f32⟩
  | .hbm, ⟨36, _⟩ => ⟨S_, .f32⟩
  | .hbm, ⟨37, _⟩ => ⟨S640000, .f32⟩
  | .hbm, ⟨38, _⟩ => ⟨S_, .f32⟩
  | .hbm, ⟨39, _⟩ => ⟨S40000, .f32⟩
  | .hbm, ⟨40, _⟩ => ⟨S640000x1, .i32⟩
  | .hbm, ⟨41, _⟩ => ⟨S40000, .f32⟩
  | .hbm, ⟨42, _⟩ => ⟨S40000x1, .f32⟩
  | .hbm, ⟨43, _⟩ => ⟨S_, .f32⟩
  | .hbm, ⟨44, _⟩ => ⟨S40000x1, .f32⟩
  | .hbm, ⟨45, _⟩ => ⟨S40000x1, .i1⟩
  | .hbm, ⟨46, _⟩ => ⟨S_, .f32⟩
  | .hbm, ⟨47, _⟩ => ⟨S40000, .f32⟩
  | .hbm, ⟨48, _⟩ => ⟨S40000, .f32⟩
  | .hbm, ⟨49, _⟩ => ⟨S40000x1, .f32⟩
  | .hbm, ⟨50, _⟩ => ⟨S40000x128, .f32⟩
  | .hbm, ⟨51, _⟩ => ⟨S40000x128, .f32⟩
  | .hbm, ⟨52, _⟩ => ⟨S_, .f32⟩
  | .hbm, ⟨53, _⟩ => ⟨S_, .f32⟩
  | .hbm, ⟨54, _⟩ => ⟨S40000x128, .i1⟩
  | .hbm, ⟨55, _⟩ => ⟨S40000x128, .f32⟩
  | .hbm, ⟨56, _⟩ => ⟨S40000x128, .f32⟩
  | .hbm, ⟨57, _⟩ => ⟨S40000x256, .f32⟩
  | .hbm, ⟨58, _⟩ => ⟨S256x128, .f32⟩
  | .hbm, ⟨59, _⟩ => ⟨S40000x128, .f32⟩
  | .hbm, ⟨60, _⟩ => ⟨S1x128, .f32⟩
  | .hbm, ⟨61, _⟩ => ⟨S40000x128, .f32⟩
  | .hbm, ⟨62, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x128_S640000x384_d1 : Shape.Concatenates [S640000x128, S640000x128, S640000x128] S640000x384 1
  transposes_S128x384_S384x128_1_0 : S128x384.Transposes [1, 0] S384x128
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S_S40000x1 : S_.BroadcastsInDim S40000x1 (![] : Fin 0 → Fin S40000x1.rank)
  bcast_S40000x1_S40000x128_0_1 : S40000x1.BroadcastsInDim S40000x128 (![0, 1] : Fin 2 → Fin S40000x128.rank)
  concatenates_S40000x128_S40000x128_S40000x256_d1 : Shape.Concatenates [S40000x128, S40000x128] S40000x256 1
  transposes_S128x256_S256x128_1_0 : S128x256.Transposes [1, 0] S256x128
  bcast_S1x128_S40000x128_0_1 : S1x128.BroadcastsInDim S40000x128 (![0, 1] : Fin 2 → Fin S40000x128.rank)
  gather_S40000x128_S640000x1_S640000x128_1_0_n_n_0_1_1128_wf : GatherDims.WF S40000x128 S640000x1 S640000x128 [1] [0] [] [0] [] 1 ![1, 128]
  dot_S640000x384_S384x128_S640000x128_1_0_0_1_n_n_wf : DotDims.WF S640000x384 S384x128 S640000x128 [1] [0] [0] [1] [] []
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S40000x256_S256x128_S40000x128_1_0_0_1_n_n_wf : DotDims.WF S40000x256 S256x128 S40000x128 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S640000x384_S384x128_S640000x128_1_0_0_1_n_n : DotDims S640000x384 S384x128 S640000x128 where
  lhsContracting := [1]
  rhsContracting := [0]
  lhsNonContracting := [0]
  rhsNonContracting := [1]
  lhsBatch := []
  rhsBatch := []
  wf := dot_S640000x384_S384x128_S640000x128_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S40000x256_S256x128_S40000x128_1_0_0_1_n_n : DotDims S40000x256 S256x128 S40000x128 where
  lhsContracting := [1]
  rhsContracting := [0]
  lhsNonContracting := [0]
  rhsNonContracting := [1]
  lhsBatch := []
  rhsBatch := []
  wf := dot_S40000x256_S256x128_S40000x128_1_0_0_1_n_n_wf

class Facts : Prop extends Facts₀ where

variable [Facts]
-- ==== Proof.Spec.lean ====
/-
  One message-passing layer over a graph, as functions on the extended reals.

  Edge update. For edge `p` and output feature `q`,
    e(p, q) = Σ_{k<128} S(p,k)·W(q,k) + Σ_{k<128} D(p,k)·W(q,128+k) + Σ_{k<128} E(p,k)·W(q,256+k) + b(q),
  where `S` and `D` hold the source and destination node's row of every edge and `E` the edge's own features:
  the joined row [S | D | E] against the transpose of `W : [128, 384]`, the sum over the 384 joined columns cut
  at the two joins.

  Node update. For node `p` and output feature `q`,
    n(p, q) = Σ_{k<128} X(p,k)·W(q,k) + Σ_{k<128} mean(p,k)·W(q,128+k) + b(q),
  where mean(p,k) = A(p,k) / max(deg p, 1) when deg p > 0 and 0 otherwise (`A` the summed messages of node `p`,
  `deg` the number of them), against `W : [128, 256]`.

  Each update is stated twice: over the joined weight as above (`edgeAt`, `nodeAt`), and over the weight already
  cut into its transposed `[128,128]` blocks with the bias kept as a one-row array and the degree as a column
  (`edgeBlocksAt`, `nodeBlocksAt`), where the mean is the product with the reciprocal `1 / max(deg p, 1)`
  (or with 0).
-/
import Idealize.ShloMosaic.PureOps.Ideal
import Idealize.ShloMosaic.Lib.ValueIdx

noncomputable section

open scoped BigOperators

namespace Cert.GraphMlp

open Idealize.ShloMosaic Idealize.ShloMosaic.ValueIdx

/-- Column `off + k` of a joined axis of `n` columns, for a piece of 128 columns that starts at `off`. -/
def col {n : Nat} (off : Nat) (h : off + 128 ≤ n) (k : Fin 128) : Fin n :=
  ⟨off + k.val, by have := k.isLt; omega⟩

theorem col_val {n : Nat} (off : Nat) (h : off + 128 ≤ n) (k : Fin 128) : (col off h k).val = off + k.val := rfl

/-! ## The edge update -/

/-- The edge update at edge `p`, feature `q`, over the joined weight `W : [128, 384]` and the bias `b : [128]`. -/
def edgeAt (S D E : (⟨2, ![640000, 128]⟩ : Shape).Idx → EReal) (W : (⟨2, ![128, 384]⟩ : Shape).Idx → EReal)
    (b : (⟨1, ![128]⟩ : Shape).Idx → EReal) (p : Fin 640000) (q : Fin 128) : EReal :=
  (∑ k : Fin 128, S (ix2 p k) * W (ix2 q (col 0 (by decide) k)))
    + (∑ k : Fin 128, D (ix2 p k) * W (ix2 q (col 128 (by decide) k)))
    + (∑ k : Fin 128, E (ix2 p k) * W (ix2 q (col 256 (by decide) k)))
    + b (ix1 q)

/-- The edge update as an array. -/
def edgeArr (S D E : (⟨2, ![640000, 128]⟩ : Shape).Idx → EReal) (W : (⟨2, ![128, 384]⟩ : Shape).Idx → EReal)
    (b : (⟨1, ![128]⟩ : Shape).Idx → EReal) : (⟨2, ![640000, 128]⟩ : Shape).Idx → EReal :=
  fun j => edgeAt S D E W b (j 0) (j 1)

/-- The edge update over the three transposed blocks `w0 w1 w2 : [128, 128]` (rows = joined column, columns = output
    feature) and the bias as a row `[1, 128]`. -/
def edgeBlocksAt (S D E : (⟨2, ![640000, 128]⟩ : Shape).Idx → EReal) (w0 w1 w2 : (⟨2, ![128, 128]⟩ : Shape).Idx → EReal)
    (b : (⟨2, ![1, 128]⟩ : Shape).Idx → EReal) (p : Fin 640000) (q : Fin 128) : EReal :=
  (∑ k : Fin 128, S (ix2 p k) * w0 (ix2 k q))
    + (∑ k : Fin 128, D (ix2 p k) * w1 (ix2 k q))
    + (∑ k : Fin 128, E (ix2 p k) * w2 (ix2 k q))
    + b (ix2 (0 : Fin 1) q)

/-- The blocked edge update as an array. -/
def edgeBlocksArr (S D E : (⟨2, ![640000, 128]⟩ : Shape).Idx → EReal) (w0 w1 w2 : (⟨2, ![128, 128]⟩ : Shape).Idx → EReal)
    (b : (⟨2, ![1, 128]⟩ : Shape).Idx → EReal) : (⟨2, ![640000, 128]⟩ : Shape).Idx → EReal :=
  fun j => edgeBlocksAt S D E w0 w1 w2 b (j 0) (j 1)

/-! ## The node update -/

/-- The mean message of node `p` at feature `k`: the summed messages over `max (deg p) 1` when the node has an
    in-edge, else 0. -/
def meanAt (A : (⟨2, ![40000, 128]⟩ : Shape).Idx → EReal) (deg : (⟨1, ![40000]⟩ : Shape).Idx → EReal)
    (p : Fin 40000) (k : Fin 128) : EReal :=
  if 0 < deg (ix1 p) then Ideal.div (A (ix2 p k)) (max (deg (ix1 p)) 1) else 0

/-- The node update at node `p`, feature `q`, over the joined weight `W : [128, 256]` and the bias `b : [128]`. -/
def nodeAt (X A : (⟨2, ![40000, 128]⟩ : Shape).Idx → EReal) (deg : (⟨1, ![40000]⟩ : Shape).Idx → EReal)
    (W : (⟨2, ![128, 256]⟩ : Shape).Idx → EReal) (b : (⟨1, ![128]⟩ : Shape).Idx → EReal) (p : Fin 40000) (q : Fin 128) : EReal :=
  (∑ k : Fin 128, X (ix2 p k) * W (ix2 q (col 0 (by decide) k)))
    + (∑ k : Fin 128, meanAt A deg p k * W (ix2 q (col 128 (by decide) k)))
    + b (ix1 q)

/-- The node update as an array. -/
def nodeArr (X A : (⟨2, ![40000, 128]⟩ : Shape).Idx → EReal) (deg : (⟨1, ![40000]⟩ : Shape).Idx → EReal)
    (W : (⟨2, ![128, 256]⟩ : Shape).Idx → EReal) (b : (⟨1, ![128]⟩ : Shape).Idx → EReal) : (⟨2, ![40000, 128]⟩ : Shape).Idx → EReal :=
  fun j => nodeAt X A deg W b (j 0) (j 1)

/-- The reciprocal of the clamped degree, or 0 for a node without in-edges. -/
def invDeg (d : EReal) : EReal := if 0 < d then Ideal.div 1 (max d 1) else 0

/-- The node update over the two transposed blocks `w0 w1 : [128, 128]`, the bias as a row `[1, 128]` and the degree
    as a column `dg : [40000, 1]`: the mean is the summed message times `invDeg`. -/
def nodeBlocksAt (X A : (⟨2, ![40000, 128]⟩ : Shape).Idx → EReal) (dg : (⟨2, ![40000, 1]⟩ : Shape).Idx → EReal)
    (w0 w1 : (⟨2, ![128, 128]⟩ : Shape).Idx → EReal) (b : (⟨2, ![1, 128]⟩ : Shape).Idx → EReal) (p : Fin 40000) (q : Fin 128) : EReal :=
  (∑ k : Fin 128, X (ix2 p k) * w0 (ix2 k q))
    + (∑ k : Fin 128, (A (ix2 p k) * invDeg (dg (ix2 p (0 : Fin 1)))) * w1 (ix2 k q))
    + b (ix2 (0 : Fin 1) q)

/-- The blocked node update as an array. -/
def nodeBlocksArr (X A : (⟨2, ![40000, 128]⟩ : Shape).Idx → EReal) (dg : (⟨2, ![40000, 1]⟩ : Shape).Idx → EReal)
    (w0 w1 : (⟨2, ![128, 128]⟩ : Shape).Idx → EReal) (b : (⟨2, ![1, 128]⟩ : Shape).Idx → EReal) : (⟨2, ![40000, 128]⟩ : Shape).Idx → EReal :=
  fun j => nodeBlocksAt X A dg w0 w1 b (j 0) (j 1)

end Cert.GraphMlp

end
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.Blocks.lean ====
/-
  The blocked form of each update is its joined form.

  The joined weight `W : [128, 384]` (or `[128, 256]`) is transposed and cut into `[128, 128]` blocks by rows; entry
  `(k, q)` of the block that starts at row `off` is `W (q, off + k)`. The bias kept as a one-row array reads the bias,
  the degree kept as a column reads the degree, and the product with the reciprocal of the clamped degree is the
  quotient by the clamped degree (or 0 for a node without in-edges). With these four readings the blocked sums are the
  joined sums term by term.
-/
import proofs.«138721_j53025666236778_1_alg».proof.Proof.Spec
import proofs.«138721_j53025666236778_1_alg».proof.Proof.LibRowOps
import proofs.«138721_j53025666236778_1_alg».proof.Proof.Gen.KernelIdeal
import Idealize.ShloMosaic.Lib.Pipeline.Value
import Idealize.ShloMosaic.Lib.ValueIdx

noncomputable section

open scoped BigOperators

namespace Cert.GraphMlp.Blocks

open Cert.KernelIdeal Cert.GraphMlp Idealize.ShloMosaic Idealize.ShloMosaic.ValueIdx
open Cert.KernelIdeal.Facts₀

/-! ## The mean as a product -/

/-- The product with the reciprocal of the clamped degree is the quotient by the clamped degree; for a node without
    in-edges both are 0. -/
theorem mul_invDeg (a d : EReal) : a * invDeg d = if 0 < d then Ideal.div a (max d 1) else 0 := by
  unfold invDeg
  by_cases hd : 0 < d
  · have hne : max d 1 ≠ 0 := ne_of_gt (lt_of_lt_of_le zero_lt_one (le_max_right d 1))
    rw [if_pos hd, if_pos hd]
    unfold Ideal.div
    rw [if_neg hne, if_neg hne, one_mul]
  · rw [if_neg hd, if_neg hd, mul_zero]

variable [Cert.KernelIdeal.Facts]

/-! ## The cut weights -/

/-- Entry `(k, q)` of the `[128, 128]` block that starts at row `off` of the transposed `[128, 384]` weight is the
    weight at `(q, off + k)`. -/
theorem sliceT_edge_apply (W : S128x384.Idx → EReal) (off : Nat) (h : off + 128 ≤ 384) (hs : S384x128.Slices ![off, 0] S128x128)
    (k q : Fin 128) :
    extractStridedSlice S128x128 ![off, 0] (transpose S384x128 [1, 0] W transposes_S128x384_S384x128_1_0) hs (ix2 k q)
      = W (ix2 q (col off h k)) := by
  refine (extractStridedSlice_apply ![off, 0] _ hs (ix2 k q) (ix2 (col off h k) q) fun a => ?_).trans ?_
  · match a with
    | ⟨0, _⟩ => rfl
    | ⟨1, _⟩ => exact (Nat.zero_add q.val).symm
  · refine transpose_apply [1, 0] W _ (ix2 (col off h k) q) (ix2 q (col off h k)) fun b => ?_
    match b with
    | ⟨0, _⟩ => rfl
    | ⟨1, _⟩ => rfl

/-- Entry `(k, q)` of the `[128, 128]` block that starts at row `off` of the transposed `[128, 256]` weight is the
    weight at `(q, off + k)`. -/
theorem sliceT_node_apply (W : S128x256.Idx → EReal) (off : Nat) (h : off + 128 ≤ 256) (hs : S256x128.Slices ![off, 0] S128x128)
    (k q : Fin 128) :
    extractStridedSlice S128x128 ![off, 0] (transpose S256x128 [1, 0] W transposes_S128x256_S256x128_1_0) hs (ix2 k q)
      = W (ix2 q (col off h k)) := by
  refine (extractStridedSlice_apply ![off, 0] _ hs (ix2 k q) (ix2 (col off h k) q) fun a => ?_).trans ?_
  · match a with
    | ⟨0, _⟩ => rfl
    | ⟨1, _⟩ => exact (Nat.zero_add q.val).symm
  · refine transpose_apply [1, 0] W _ (ix2 (col off h k) q) (ix2 q (col off h k)) fun b => ?_
    match b with
    | ⟨0, _⟩ => rfl
    | ⟨1, _⟩ => rfl

/-! ## The bias row and the degree column -/

/-- The bias kept as a one-row array reads the bias. -/
theorem biasRow_apply (b : S128.Idx → EReal) (q : Fin 128) :
    shapeCast S1x128 b shapeCasts_S128_S1x128 (ix2 (0 : Fin 1) q) = b (ix1 q) :=
  shapeCast_apply b _ _ _ (by
    rw [Shape.rowMajor_val_two, Shape.rowMajor_val_one]
    show q.val = 0 * 128 + q.val
    omega)

/-- The degree kept as a column reads the degree. -/
theorem degCol_apply (d : S40000.Idx → EReal) (p : Fin 40000) :
    shapeCast S40000x1 d shapeCasts_S40000_S40000x1 (ix2 p (0 : Fin 1)) = d (ix1 p) :=
  Cert.RowOps.shapeCast_a_a1_apply d _ p 0

/-! ## The two updates -/

/-- The edge update over the cut weight and the bias row is the edge update over the joined weight and the bias. -/
theorem edge_blocks (S D E : S640000x128.Idx → EReal) (W : S128x384.Idx → EReal) (b : S128.Idx → EReal) :
    edgeBlocksArr S D E
        (extractStridedSlice S128x128 ![0, 0] (transpose S384x128 [1, 0] W transposes_S128x384_S384x128_1_0) slices_S384x128_S128x128_0_0)
        (extractStridedSlice S128x128 ![128, 0] (transpose S384x128 [1, 0] W transposes_S128x384_S384x128_1_0) slices_S384x128_S128x128_128_0)
        (extractStridedSlice S128x128 ![256, 0] (transpose S384x128 [1, 0] W transposes_S128x384_S384x128_1_0) slices_S384x128_S128x128_256_0)
        (shapeCast S1x128 b shapeCasts_S128_S1x128)
      = edgeArr S D E W b := by
  funext j
  obtain ⟨p, q, rfl⟩ : ∃ (p : Fin 640000) (q : Fin 128), j = ix2 p q := ⟨j 0, j 1, eq_ix2 j⟩
  show edgeBlocksAt S D E _ _ _ _ p q = edgeAt S D E W b p q
  unfold edgeBlocksAt edgeAt
  rw [biasRow_apply]
  congr 1
  congr 1
  congr 1
  · exact Finset.sum_congr rfl fun k _ => by rw [sliceT_edge_apply W 0 (by decide)]
  · exact Finset.sum_congr rfl fun k _ => by rw [sliceT_edge_apply W 128 (by decide)]
  · exact Finset.sum_congr rfl fun k _ => by rw [sliceT_edge_apply W 256 (by decide)]

/-- The node update over the cut weight, the bias row and the degree column is the node update over the joined weight,
    the bias and the degree. -/
theorem node_blocks (X A : S40000x128.Idx → EReal) (deg : S40000.Idx → EReal) (W : S128x256.Idx → EReal) (b : S128.Idx → EReal) :
    nodeBlocksArr X A (shapeCast S40000x1 deg shapeCasts_S40000_S40000x1)
        (extractStridedSlice S128x128 ![0, 0] (transpose S256x128 [1, 0] W transposes_S128x256_S256x128_1_0) slices_S256x128_S128x128_0_0)
        (extractStridedSlice S128x128 ![128, 0] (transpose S256x128 [1, 0] W transposes_S128x256_S256x128_1_0) slices_S256x128_S128x128_128_0)
        (shapeCast S1x128 b shapeCasts_S128_S1x128)
      = nodeArr X A deg W b := by
  funext j
  obtain ⟨p, q, rfl⟩ : ∃ (p : Fin 40000) (q : Fin 128), j = ix2 p q := ⟨j 0, j 1, eq_ix2 j⟩
  show nodeBlocksAt X A _ _ _ _ p q = nodeAt X A deg W b p q
  unfold nodeBlocksAt nodeAt
  rw [biasRow_apply, degCol_apply]
  congr 1
  congr 1
  · exact Finset.sum_congr rfl fun k _ => by rw [sliceT_node_apply W 0 (by decide)]
  · exact Finset.sum_congr rfl fun k _ => by rw [sliceT_node_apply W 128 (by decide), mul_invDeg]; rfl

end Cert.GraphMlp.Blocks

end
-- ==== Proof.KEdge.lean ====
/-
  What the first pallas_call (the edge update, 200 grid points of 3200 edges) leaves in its output array: the
  blocked edge update of the arrays it finds at entry, index by index.

  At grid point `t` the body loads rows 3200·t … 3200·t + 3199 of the three edge-row arrays, the three whole
  [128,128] weight blocks and the bias row, and stores, at row `r` and feature `q` of the block,
    Σ_k s(r,k)·w0(k,q) + Σ_k d(r,k)·w1(k,q) + Σ_k e(r,k)·w2(k,q) + b(0,q)
  (three matrix products into a zero accumulator, added, plus the bias row spread over the rows; the narrowing of
  the operands to bf16 is the identity on the extended reals). The 200 blocks tile the 640000 rows.
-/
import proofs.«138721_j53025666236778_1_alg».proof.Proof.Spec
import proofs.«138721_j53025666236778_1_alg».proof.Proof.LibRowOps
import proofs.«138721_j53025666236778_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.EdgeValue

open Cert.KernelIdeal Cert.KernelIdeal.Gen Cert.GraphMlp
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- The matrix product's dimension record is the plain `[M,K]·[K,N]` one. -/
theorem dot_eq : dot_S3200x128_S128x128_S3200x128_1_0_0_1_n_n
    = (⟨[1], [0], [0], [1], [], [], Facts₀.dot_S3200x128_S128x128_S3200x128_1_0_0_1_n_n_wf⟩ : DotDims S3200x128 S128x128 S3200x128) := rfl

/-- The body's stored value at row `r`, feature `q` of the block. -/
theorem pay_apply (v0 v3 v6 : Vec Ideal S3200x128 .f32) (v8 v11 v14 : Vec Ideal S128x128 .f32) (v22 : Vec Ideal S1x128 .f32)
    (r : Fin 3200) (q : Fin 128) :
    k0_pay1 (F := Ideal) v0 v3 v6 v8 v11 v14 v22 (ix2 r q)
      = (∑ k : Fin 128, v0 (ix2 r k) * v8 (ix2 k q)) + (∑ k : Fin 128, v3 (ix2 r k) * v11 (ix2 k q))
        + (∑ k : Fin 128, v6 (ix2 r k) * v14 (ix2 k q)) + v22 (ix2 (0 : Fin 1) q) := by
  unfold k0_pay1
  simp only [shapeCast_self, addf_apply, matmul]
  rw [dot_eq, Cert.RowOps.matmul_apply, Cert.RowOps.matmul_apply, Cert.RowOps.matmul_apply, broadcastTo_1b_ab_apply]
  simp only [truncf_apply]

/-- The body's stored value at any index of the block. -/
theorem pay_at (v0 v3 v6 : Vec Ideal S3200x128 .f32) (v8 v11 v14 : Vec Ideal S128x128 .f32) (v22 : Vec Ideal S1x128 .f32)
    (j : S3200x128.Idx) :
    k0_pay1 (F := Ideal) v0 v3 v6 v8 v11 v14 v22 j
      = (∑ k : Fin 128, v0 (ix2 (j 0) k) * v8 (ix2 k (j 1))) + (∑ k : Fin 128, v3 (ix2 (j 0) k) * v11 (ix2 k (j 1)))
        + (∑ k : Fin 128, v6 (ix2 (j 0) k) * v14 (ix2 k (j 1))) + v22 (ix2 (0 : Fin 1) (j 1)) := by
  obtain ⟨r, q, rfl⟩ : ∃ (r : Fin 3200) (q : Fin 128), j = ix2 r q := ⟨j 0, j 1, eq_ix2 j⟩
  exact pay_apply v0 v3 v6 v8 v11 v14 v22 r q

/-- The printed index maps, decided over the grid: the three edge-row windows and the output move together along the
    rows, block `t` at point `t`; the weight blocks and the bias row stay at block (0, 0). -/
theorem idx_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

variable (V : (c : Dev nD) → (b : Ref sig .tc) → Buf (Elt Ideal) ((c : Thread nD τ).loc b))

/-- WHAT POINT `t` WRITES BACK is block `t` of the blocked edge update of the arrays as the region finds them. -/
theorem flushed_eq (c : Dev nD) (t : Fin cfg0.N) :
    (dat0 (F := Ideal) V c).flushed 7 t = ((cfg0.win 7).blk t).view.read (Elt Ideal)
      (edgeBlocksArr (V c main_v6) (V c main_v13) (V c main_arg1) (V c main_v15) (V c main_v16) (V c main_v17) (V c main_v18)) := by
  show (cfg0.win 7).cut (grid0.coords t) ((dat0 (F := Ideal) V c).after 7 t) = _
  rw [after0_7]
  unfold out0_7
  rw [View.canon_unit_zero hz]
  simp only [View.ld_unit_zero (S := S3200x128) hz, View.ld_unit_zero (S := S128x128) hz, View.ld_unit_zero (S := S1x128) hz]
  obtain ⟨e00, e01, e10, e11, e20, e21, e30, e31, e40, e41, e50, e51, e60, e61, e70, e71⟩ := idx_facts t
  funext j
  show k0_pay1 (F := Ideal) (iblk0 V c 0 t) (iblk0 V c 1 t) (iblk0 V c 2 t) (iblk0 V c 3 t) (iblk0 V c 4 t) (iblk0 V c 5 t) (iblk0 V c 6 t) j
    = edgeBlocksArr (V c main_v6) (V c main_v13) (V c main_arg1) (V c main_v15) (V c main_v16) (V c main_v17) (V c main_v18) (((cfg0.win 7).blk t).view.emb j)
  refine (pay_at (iblk0 V c 0 t) (iblk0 V c 1 t) (iblk0 V c 2 t) (iblk0 V c 3 t) (iblk0 V c 4 t) (iblk0 V c 5 t) (iblk0 V c 6 t) j).trans ?_
  unfold edgeBlocksArr edgeBlocksAt
  have hs : ∀ k : Fin 128, iblk0 V c 0 t (ix2 (j 0) k) = V c main_v6 (ix2 ((((cfg0.win 7).blk t).view.emb j) 0) k) := fun k => by
    show V c main_v6 (((cfg0.win 0).blk t).view.emb (ix2 (j 0) k)) = _
    refine congrArg (V c main_v6) (funext fun a => Fin.ext ?_)
    match a with
    | ⟨0, _⟩ => show win0_0.index t (0 : Fin 2) * 3200 + 1 * (j 0).val = win0_7.index t (0 : Fin 2) * 3200 + 1 * (j 0).val; omega
    | ⟨1, _⟩ => show win0_0.index t (1 : Fin 2) * 128 + 1 * k.val = k.val; omega
  have hd : ∀ k : Fin 128, iblk0 V c 1 t (ix2 (j 0) k) = V c main_v13 (ix2 ((((cfg0.win 7).blk t).view.emb j) 0) k) := fun k => by
    show V c main_v13 (((cfg0.win 1).blk t).view.emb (ix2 (j 0) k)) = _
    refine congrArg (V c main_v13) (funext fun a => Fin.ext ?_)
    match a with
    | ⟨0, _⟩ => show win0_1.index t (0 : Fin 2) * 3200 + 1 * (j 0).val = win0_7.index t (0 : Fin 2) * 3200 + 1 * (j 0).val; omega
    | ⟨1, _⟩ => show win0_1.index t (1 : Fin 2) * 128 + 1 * k.val = k.val; omega
  have he : ∀ k : Fin 128, iblk0 V c 2 t (ix2 (j 0) k) = V c main_arg1 (ix2 ((((cfg0.win 7).blk t).view.emb j) 0) k) := fun k => by
    show V c main_arg1 (((cfg0.win 2).blk t).view.emb (ix2 (j 0) k)) = _
    refine congrArg (V c main_arg1) (funext fun a => Fin.ext ?_)
    match a with
    | ⟨0, _⟩ => show win0_2.index t (0 : Fin 2) * 3200 + 1 * (j 0).val = win0_7.index t (0 : Fin 2) * 3200 + 1 * (j 0).val; omega
    | ⟨1, _⟩ => show win0_2.index t (1 : Fin 2) * 128 + 1 * k.val = k.val; omega
  have hw0 : ∀ k : Fin 128, iblk0 V c 3 t (ix2 k (j 1)) = V c main_v15 (ix2 k ((((cfg0.win 7).blk t).view.emb j) 1)) := fun k => by
    show V c main_v15 (((cfg0.win 3).blk t).view.emb (ix2 k (j 1))) = _
    refine congrArg (V c main_v15) (funext fun a => Fin.ext ?_)
    match a with
    | ⟨0, _⟩ => show win0_3.index t (0 : Fin 2) * 128 + 1 * k.val = k.val; omega
    | ⟨1, _⟩ => show win0_3.index t (1 : Fin 2) * 128 + 1 * (j 1).val = win0_7.index t (1 : Fin 2) * 128 + 1 * (j 1).val; omega
  have hw1 : ∀ k : Fin 128, iblk0 V c 4 t (ix2 k (j 1)) = V c main_v16 (ix2 k ((((cfg0.win 7).blk t).view.emb j) 1)) := fun k => by
    show V c main_v16 (((cfg0.win 4).blk t).view.emb (ix2 k (j 1))) = _
    refine congrArg (V c main_v16) (funext fun a => Fin.ext ?_)
    match a with
    | ⟨0, _⟩ => show win0_4.index t (0 : Fin 2) * 128 + 1 * k.val = k.val; omega
    | ⟨1, _⟩ => show win0_4.index t (1 : Fin 2) * 128 + 1 * (j 1).val = win0_7.index t (1 : Fin 2) * 128 + 1 * (j 1).val; omega
  have hw2 : ∀ k : Fin 128, iblk0 V c 5 t (ix2 k (j 1)) = V c main_v17 (ix2 k ((((cfg0.win 7).blk t).view.emb j) 1)) := fun k => by
    show V c main_v17 (((cfg0.win 5).blk t).view.emb (ix2 k (j 1))) = _
    refine congrArg (V c main_v17) (funext fun a => Fin.ext ?_)
    match a with
    | ⟨0, _⟩ => show win0_5.index t (0 : Fin 2) * 128 + 1 * k.val = k.val; omega
    | ⟨1, _⟩ => show win0_5.index t (1 : Fin 2) * 128 + 1 * (j 1).val = win0_7.index t (1 : Fin 2) * 128 + 1 * (j 1).val; omega
  have hb : iblk0 V c 6 t (ix2 (0 : Fin 1) (j 1)) = V c main_v18 (ix2 (0 : Fin 1) ((((cfg0.win 7).blk t).view.emb j) 1)) := by
    show V c main_v18 (((cfg0.win 6).blk t).view.emb (ix2 (0 : Fin 1) (j 1))) = _
    refine congrArg (V c main_v18) (funext fun a => Fin.ext ?_)
    match a with
    | ⟨0, _⟩ => show win0_6.index t (0 : Fin 2) * 1 + 1 * 0 = 0; omega
    | ⟨1, _⟩ => show win0_6.index t (1 : Fin 2) * 128 + 1 * (j 1).val = win0_7.index t (1 : Fin 2) * 128 + 1 * (j 1).val; omega
  simp only [hs, hd, he, hw0, hw1, hw2, hb]

/-- An index of the array is in point `t`'s block iff each coordinate is in the block's range on its axis. -/
theorem mem_blk (t : Fin cfg0.N) (i : S640000x128.Idx) :
    i ∈ ((cfg0.win 7).blk t).view.set ↔ ∀ a : Fin 2, win0_7.index t a * S3200x128.size a ≤ (i a).val ∧ (i a).val < win0_7.index t a * S3200x128.size a + S3200x128.size a := by
  show i ∈ ((View.whole main_v19).slice (win0_7.rect t)).set ↔ _
  rw [View.set_slice_whole, Rect.mem_set_unit]
  exact Iff.rfl

/-- Every edge row lies in the block of point `row / 3200`. -/
theorem cover (i : S640000x128.Idx) :
    ∃ t : Fin cfg0.N, (cfg0.win 7).flush t = true ∧ i ∈ ((cfg0.win 7).blk t).view.set := by
  have hi0 : (i 0).val < 640000 := (i 0).isLt
  have hi1 : (i 1).val < 128 := (i 1).isLt
  have ht : (i 0).val / 3200 < 200 := by omega
  obtain ⟨-, -, -, -, -, -, -, -, -, -, -, -, -, -, e70, e71⟩ := idx_facts (⟨(i 0).val / 3200, ht⟩ : Fin cfg0.N)
  refine ⟨(⟨(i 0).val / 3200, ht⟩ : Fin cfg0.N), flush0_7 _, ?_⟩
  rw [mem_blk]
  intro a
  match a with
  | ⟨0, _⟩ =>
    show win0_7.index (⟨(i 0).val / 3200, ht⟩ : Fin cfg0.N) (0 : Fin 2) * 3200 ≤ (i 0).val ∧ (i 0).val < win0_7.index (⟨(i 0).val / 3200, ht⟩ : Fin cfg0.N) (0 : Fin 2) * 3200 + 3200
    rw [e70]
    show (i 0).val / 3200 * 3200 ≤ (i 0).val ∧ (i 0).val < (i 0).val / 3200 * 3200 + 3200
    omega
  | ⟨1, _⟩ =>
    show win0_7.index (⟨(i 0).val / 3200, ht⟩ : Fin cfg0.N) (1 : Fin 2) * 128 ≤ (i 1).val ∧ (i 1).val < win0_7.index (⟨(i 0).val / 3200, ht⟩ : Fin cfg0.N) (1 : Fin 2) * 128 + 128
    rw [e71]
    omega

/-- THE ARRAY after the region: the blocked edge update of the arrays as the region finds them. -/
theorem final0 (c : Dev nD) :
    (dat0 (F := Ideal) V c).arrAt 7 cfg0.N
      = edgeBlocksArr (V c main_v6) (V c main_v13) (V c main_arg1) (V c main_v15) (V c main_v16) (V c main_v17) (V c main_v18) :=
  (dat0 (F := Ideal) V c).arrAt_eq_of_cover 7 _ (fun t _ => flushed_eq V c t) cover

end Cert.KernelIdeal.EdgeValue

end
-- ==== Proof.KNode.lean ====
/-
  The node update's output array after its eight row blocks have been written back.

  Each grid point t reads rows 5000·t … 5000·t + 4999 of the node features X, of the summed messages A and of the
  degree column, the two weight blocks and the bias row whole, and writes the same rows of the output. Row by row the
  body computes  Σ_k X(p,k)·w0(k,q) + Σ_k (A(p,k)·invDeg(deg p))·w1(k,q) + b(q);  the eight blocks tile the 40000 rows,
  so the output array ends as that function of the arrays found at entry.
-/
import proofs.«138721_j53025666236778_1_alg».proof.Proof.Spec
import proofs.«138721_j53025666236778_1_alg».proof.Proof.LibRowOps
import proofs.«138721_j53025666236778_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.NodeValue

open Cert.KernelIdeal Cert.KernelIdeal.Gen Cert.GraphMlp Idealize.ShloMosaic Idealize.ShloMosaic.TcCoe Idealize.ShloMosaic.ValueIdx Idealize.SL.Sem
open Idealize.ShloMosaic.Pipeline (Dat)

/-! ## The body's arithmetic at an index -/

/-- The word of 1.0 is the extended real 1. -/
theorem one_f32 : Ideal.ofBits .f32 0x3F800000#32 = 1 := by
  simp [Ideal.ofBits, Ideal.ieee, -EReal.coe_mul]; norm_num

/-- The select on "the degree is positive" between the reciprocal of the clamped degree and zero is `invDeg`. -/
theorem invDeg_sel (d : Ideal .f32) :
    Scalar.select (FloatOps.cmpf (F := Ideal) .ogt d (FloatOps.ofBits (F := Ideal) .f32 0x00000000#32))
      (Ideal.div (FloatOps.ofBits (F := Ideal) .f32 0x3F800000#32) (max d (FloatOps.ofBits (F := Ideal) .f32 0x3F800000#32)))
      (FloatOps.ofBits (F := Ideal) .f32 0x00000000#32) = invDeg d := by
  simp only [Ideal.ofBits_def, Ideal.ofBits_zero_f32, one_f32, Ideal.cmpf_def]
  unfold invDeg Scalar.select Ideal.cmp
  show (if BitVec.ofBool (decide ((0 : EReal) < d)) = 1#1 then Ideal.div 1 (max d 1) else 0) = _
  by_cases h : (0 : EReal) < d
  · have hb : BitVec.ofBool (decide ((0 : EReal) < d)) = 1#1 := by rw [decide_eq_true h]; rfl
    rw [if_pos hb, if_pos h]
  · have hb : ¬ BitVec.ofBool (decide ((0 : EReal) < d)) = 1#1 := by rw [decide_eq_false h]; decide
    rw [if_neg hb, if_neg h]

/-- The body's matrix product into the zero accumulator, at row `r`, column `q`: the sum over the 128 contracted columns. -/
theorem mm_apply (a : FVec Ideal S5000x128 .bf16) (b : FVec Ideal S128x128 .bf16) (r : Fin 5000) (q : Fin 128) :
    matmul (F := Ideal) dot_S5000x128_S128x128_S5000x128_1_0_0_1_n_n none a b (constant (F := Ideal) S5000x128 .f32 0x00000000#32) (ix2 r q)
      = ∑ k : Fin 128, a (ix2 r k) * b (ix2 k q) :=
  Cert.RowOps.matmul_apply (M := 5000) (K := 128) (N := 128) dot_S5000x128_S128x128_S5000x128_1_0_0_1_n_n.wf none a b r q

/-- The body's arithmetic at row `r`, feature `q` of a block: the features against the first weight block, the summed
    messages scaled by the reciprocal degree against the second, and the bias. -/
theorem pay_apply (v0 : Vec Ideal S5000x1 .f32) (v10 v15 : Vec Ideal S5000x128 .f32) (v18 v21 : Vec Ideal S128x128 .f32)
    (v27 : Vec Ideal S1x128 .f32) (r : Fin 5000) (q : Fin 128) :
    k1_pay1 (F := Ideal) v0 v10 v15 v18 v21 v27 (ix2 r q)
      = (∑ k : Fin 128, v15 (ix2 r k) * v18 (ix2 k q))
        + (∑ k : Fin 128, (v10 (ix2 r k) * invDeg (v0 (ix2 r 0))) * v21 (ix2 k q))
        + v27 (ix2 0 q) := by
  unfold k1_pay1
  simp only [shapeCast_self]
  rw [addf_apply, addf_apply, mm_apply, mm_apply, broadcastTo_1b_ab_apply]
  simp only [truncf_apply, mulf_apply, Cert.RowOps.broadcastTo_a1_ab_apply, select_apply, cmpf_apply, divf_apply, maximumf_apply, broadcast_apply, invDeg_sel]

/-! ## The blocks of a grid point, as rows of the arrays found at entry -/

theorem hz : (![0, 0] : Fin 2 → Nat) = fun _ => 0 := funext fun a => by fin_cases a <;> rfl

/-- The block indices over the grid: the row-blocked windows sit at block `(t, 0)`, the whole ones at `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `r` of grid point `t`'s block is row `5000·t + r` of the array. -/
def rowOf (t : Fin cfg1.N) (r : Fin 5000) : Fin 40000 :=
  ⟨t.val * 5000 + r.val, by have h8 : cfg1.N = 8 := rfl; have := t.isLt; have := r.isLt; omega⟩

theorem rowOf_val (t : Fin cfg1.N) (r : Fin 5000) : (rowOf t r).val = t.val * 5000 + r.val := rfl

section Blocks
variable (V : (c : Dev nD) → (b : Ref sig .tc) → Buf (Elt Ideal) ((c : Thread nD τ).loc b)) (c : Dev nD) (t : Fin cfg1.N)

/-- The node features' block: rows `5000·t …` of the array. -/
theorem blk0_apply (r : Fin 5000) (k : Fin 128) :
    (iblk1 (F := Ideal) V c 0 t : Vec Ideal S5000x128 .f32) (ix2 r k) = (V c main_arg0 : S40000x128.Idx → EReal) (ix2 (rowOf t r) k) := by
  obtain ⟨e0, e1, -⟩ := idx_facts t
  unfold iblk1
  rw [View.read_apply]
  refine congrArg (V c main_arg0 : S40000x128.Idx → EReal) (funext fun a => Fin.ext ?_)
  match a with
  | ⟨0, _⟩ => show win1_0.index t (0 : Fin 2) * 5000 + 1 * r.val = t.val * 5000 + r.val; omega
  | ⟨1, _⟩ => show win1_0.index t (1 : Fin 2) * 128 + 1 * k.val = k.val; omega

/-- The summed messages' block: the same rows. -/
theorem blk1_apply (r : Fin 5000) (k : Fin 128) :
    (iblk1 (F := Ideal) V c 1 t : Vec Ideal S5000x128 .f32) (ix2 r k) = (V c main_v22 : S40000x128.Idx → EReal) (ix2 (rowOf t r) k) := by
  obtain ⟨-, -, e0, e1, -⟩ := idx_facts t
  unfold iblk1
  rw [View.read_apply]
  refine congrArg (V c main_v22 : S40000x128.Idx → EReal) (funext fun a => Fin.ext ?_)
  match a with
  | ⟨0, _⟩ => show win1_1.index t (0 : Fin 2) * 5000 + 1 * r.val = t.val * 5000 + r.val; omega
  | ⟨1, _⟩ => show win1_1.index t (1 : Fin 2) * 128 + 1 * k.val = k.val; omega

/-- The degree column's block: the same rows of the one column. -/
theorem blk2_apply (r : Fin 5000) :
    (iblk1 (F := Ideal) V c 2 t : Vec Ideal S5000x1 .f32) (ix2 r (0 : Fin 1)) = (V c main_v27 : S40000x1.Idx → EReal) (ix2 (rowOf t r) (0 : Fin 1)) := by
  obtain ⟨-, -, -, -, e0, e1, -⟩ := idx_facts t
  unfold iblk1
  rw [View.read_apply]
  refine congrArg (V c main_v27 : S40000x1.Idx → EReal) (funext fun a => Fin.ext ?_)
  match a with
  | ⟨0, _⟩ => show win1_2.index t (0 : Fin 2) * 5000 + 1 * r.val = t.val * 5000 + r.val; omega
  | ⟨1, _⟩ => show win1_2.index t (1 : Fin 2) * 1 + 1 * 0 = 0; omega

/-- The first weight block, whole. -/
theorem blk3_apply (k q : Fin 128) :
    (iblk1 (F := Ideal) V c 3 t : Vec Ideal S128x128 .f32) (ix2 k q) = (V c main_v29 : S128x128.Idx → EReal) (ix2 k q) := by
  obtain ⟨-, -, -, -, -, -, e0, e1, -⟩ := idx_facts t
  unfold iblk1
  rw [View.read_apply]
  refine congrArg (V c main_v29 : S128x128.Idx → EReal) (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- The second weight block, whole. -/
theorem blk4_apply (k q : Fin 128) :
    (iblk1 (F := Ideal) V c 4 t : Vec Ideal S128x128 .f32) (ix2 k q) = (V c main_v30 : S128x128.Idx → EReal) (ix2 k q) := by
  obtain ⟨-, -, -, -, -, -, -, -, e0, e1, -⟩ := idx_facts t
  unfold iblk1
  rw [View.read_apply]
  refine congrArg (V c main_v30 : S128x128.Idx → EReal) (funext fun a => Fin.ext ?_)
  match a with
  | ⟨0, _⟩ => show win1_4.index t (0 : Fin 2) * 128 + 1 * k.val = k.val; omega
  | ⟨1, _⟩ => show win1_4.index t (1 : Fin 2) * 128 + 1 * q.val = q.val; omega

/-- The bias row, whole. -/
theorem blk5_apply (q : Fin 128) :
    (iblk1 (F := Ideal) V c 5 t : Vec Ideal S1x128 .f32) (ix2 (0 : Fin 1) q) = (V c main_v31 : S1x128.Idx → EReal) (ix2 (0 : Fin 1) q) := by
  obtain ⟨-, -, -, -, -, -, -, -, -, -, e0, e1, -⟩ := idx_facts t
  unfold iblk1
  rw [View.read_apply]
  refine congrArg (V c main_v31 : S1x128.Idx → EReal) (funext fun a => Fin.ext ?_)
  match a with
  | ⟨0, _⟩ => show win1_5.index t (0 : Fin 2) * 1 + 1 * 0 = 0; omega
  | ⟨1, _⟩ => show win1_5.index t (1 : Fin 2) * 128 + 1 * q.val = q.val; omega

/-- Where the output's block sits in the array: row `r`, feature `q` of the block is row `5000·t + r`, feature `q`. -/
theorem out_emb (r : Fin 5000) (q : Fin 128) :
    ((cfg1.win 6).blk t).view.emb (ix2 r q) = (ix2 (rowOf t r) q : S40000x128.Idx) := by
  obtain ⟨-, -, -, -, -, -, -, -, -, -, -, -, e0, e1⟩ := idx_facts t
  refine funext fun a => Fin.ext ?_
  match a with
  | ⟨0, _⟩ => show win1_6.index t (0 : Fin 2) * 5000 + 1 * r.val = t.val * 5000 + r.val; omega
  | ⟨1, _⟩ => show win1_6.index t (1 : Fin 2) * 128 + 1 * q.val = q.val; omega

/-! ## What a grid point writes back -/

/-- What grid point `t` writes back: its block of rows of the blocked node update of the entry arrays. -/
theorem flushed_eq :
    (dat1 (F := Ideal) V c).flushed 6 t = ((cfg1.win 6).blk t).view.read (Elt Ideal)
      (nodeBlocksArr (V c main_arg0) (V c main_v22) (V c main_v27) (V c main_v29) (V c main_v30) (V c main_v31)) := by
  show (cfg1.win 6).cut (grid1.coords t) ((dat1 (F := Ideal) V c).after 6 t) = _
  rw [after1_6]
  unfold out1_6
  rw [View.canon_unit_zero hz]
  simp only [View.ld_unit_zero (S := S5000x128) hz, View.ld_unit_zero (S := S5000x1) hz, View.ld_unit_zero (S := S128x128) hz,
    View.ld_unit_zero (S := S1x128) hz]
  refine funext fun (j : S5000x128.Idx) => ?_
  obtain ⟨r, q, rfl⟩ : ∃ (r : Fin 5000) (q : Fin 128), j = ix2 r q := ⟨j 0, j 1, eq_ix2 j⟩
  refine (pay_apply _ _ _ _ _ _ r q).trans ?_
  rw [View.read_apply, out_emb]
  show _ = nodeBlocksAt (V c main_arg0) (V c main_v22) (V c main_v27) (V c main_v29) (V c main_v30) (V c main_v31) (rowOf t r) q
  unfold nodeBlocksAt
  simp only [blk0_apply, blk1_apply, blk2_apply, blk3_apply, blk4_apply, blk5_apply]

end Blocks

/-! ## The eight blocks tile the array -/

/-- An index of the array is in point `t`'s block iff each coordinate is in the block's range on its axis. -/
theorem mem_blk (t : Fin cfg1.N) (i : S40000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v32).slice (win1_6.rect t)).set ↔ _
  rw [View.set_slice_whole, Rect.mem_set_unit]
  exact Iff.rfl

/-- Row `p` lies in the block of grid point `p / 5000`, which writes back. -/
theorem cover (i : S40000x128.Idx) :
    ∃ t : Fin cfg1.N, (cfg1.win 6).flush t = true ∧ i ∈ ((cfg1.win 6).blk t).view.set := by
  have hi0 : (i 0).val < 40000 := (i 0).isLt
  have hi1 : (i 1).val < 128 := (i 1).isLt
  have h8 : cfg1.N = 8 := rfl
  obtain ⟨t, ht⟩ : ∃ t : Fin cfg1.N, t.val = (i 0).val / 5000 := ⟨⟨(i 0).val / 5000, by omega⟩, rfl⟩
  refine ⟨t, flush1_6 t, ?_⟩
  obtain ⟨-, -, -, -, -, -, -, -, -, -, -, -, e0, e1⟩ := idx_facts t
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-! ## The output array -/

/-- The output array after the region: the blocked node update of the arrays found at entry. -/
theorem final1 (V : (c : Dev nD) → (b : Ref sig .tc) → Buf (Elt Ideal) ((c : Thread nD τ).loc b)) (c : Dev nD) :
    (dat1 (F := Ideal) V c).arrAt 6 cfg1.N = nodeBlocksArr (V c main_arg0) (V c main_v22) (V c main_v27) (V c main_v29) (V c main_v30) (V c main_v31) :=
  (dat1 (F := Ideal) V c).arrAt_eq_of_cover 6
    (nodeBlocksArr (V c main_arg0) (V c main_v22) (V c main_v27) (V c main_v29) (V c main_v30) (V c main_v31))
    (fun t _ => flushed_eq V c t) cover

end Cert.KernelIdeal.NodeValue

end
-- ==== Proof.KHost.lean ====
/-
  The host side of the kernel program, read back to the launch memory `m`.

  Before the first pallas_call the host gathers the source and destination node rows of every edge (indices below
  zero wrapped by 40000 first), cuts the transposed edge weight into its three [128,128] blocks and reshapes the bias
  to a row; between the two calls it sums the edge messages and the constant 1 onto the destination nodes
  (two scatter-adds into zeros), reshapes the degree to a column, and cuts the transposed node weight into its two
  blocks. Each array a region stages is stated here as that term of the arguments, and the two results — the first
  region's output array after the run and the second's — as the edge update and the node update of the arguments.
-/
import proofs.«138721_j53025666236778_1_alg».proof.Proof.Spec
import proofs.«138721_j53025666236778_1_alg».proof.Proof.Blocks
import proofs.«138721_j53025666236778_1_alg».proof.Proof.KEdge
import proofs.«138721_j53025666236778_1_alg».proof.Proof.KNode
import proofs.«138721_j53025666236778_1_alg».proof.Proof.Gen.KernelIdeal.Frame
import Idealize.ShloMosaic.Lib.StableHlo.Run
import Idealize.ShloMosaic.PureOps.Ideal

set_option maxRecDepth 16384

noncomputable section

namespace Cert.KernelIdeal.HostReads

open Cert.KernelIdeal Cert.KernelIdeal.Gen Cert.GraphMlp
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The arguments at the first region's exit -/

/-- Argument `main_arg0` is written by no host operation of the first stretch and is no array the first region writes:
    at the first region's exit it still holds its launch contents. -/
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
        simp only [hostOps0, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = m ((c : Thread nD τ).loc main_arg0) := rfl

/-- Argument `main_arg3` is written by no host operation of the first stretch and is no array the first region writes:
    at the first region's exit it still holds its launch contents. -/
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
        simp only [hostOps0, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = m ((c : Thread nD τ).loc main_arg3) := rfl

/-- Argument `main_arg6` is written by no host operation of the first stretch and is no array the first region writes:
    at the first region's exit it still holds its launch contents. -/
theorem W2_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
        simp only [hostOps0, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = m ((c : Thread nD τ).loc main_arg6) := rfl

/-- Argument `main_arg7` is written by no host operation of the first stretch and is no array the first region writes:
    at the first region's exit it still holds its launch contents. -/
theorem W2_main_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
        simp only [hostOps0, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = m ((c : Thread nD τ).loc main_arg7) := rfl

/-! ## What the first region stages -/

theorem V1_v6 (c : Dev nD) : (V1 m ρ c main_v6 : S640000x128.Idx → EReal) = Host.gather gather_S40000x128_S640000x1_S640000x128_1_0_n_n_0_1_1128 (m ((c : Thread nD τ).loc main_arg0)) (broadcastInDim S640000x1 ![0] bcast_S640000_S640000x1_0 (select (cmpi .slt (m ((c : Thread nD τ).loc main_arg2)) (broadcastInDim S640000 ![] bcast_S_S640000 (constantI S_ 32 0#32))) (addi (m ((c : Thread nD τ).loc main_arg2)) (broadcastInDim S640000 ![] bcast_S_S640000 (constantI S_ 32 40000#32))) (m ((c : Thread nD τ).loc main_arg2)))) := by
  dsimp only [V1, W1, hostOps0]; after_results <;> rfl

theorem V1_v13 (c : Dev nD) : (V1 m ρ c main_v13 : S640000x128.Idx → EReal) = Host.gather gather_S40000x128_S640000x1_S640000x128_1_0_n_n_0_1_1128 (m ((c : Thread nD τ).loc main_arg0)) (broadcastInDim S640000x1 ![0] bcast_S640000_S640000x1_0 (select (cmpi .slt (m ((c : Thread nD τ).loc main_arg3)) (broadcastInDim S640000 ![] bcast_S_S640000 (constantI S_ 32 0#32))) (addi (m ((c : Thread nD τ).loc main_arg3)) (broadcastInDim S640000 ![] bcast_S_S640000 (constantI S_ 32 40000#32))) (m ((c : Thread nD τ).loc main_arg3)))) := by
  dsimp only [V1, W1, hostOps0]; after_results <;> rfl

theorem V1_arg1 (c : Dev nD) : (V1 m ρ c main_arg1 : S640000x128.Idx → EReal) = m ((c : Thread nD τ).loc main_arg1) := by
  dsimp only [V1, W1, hostOps0]; after_results <;> rfl

theorem V1_v15 (c : Dev nD) : (V1 m ρ c main_v15 : S128x128.Idx → EReal) = extractStridedSlice S128x128 ![0, 0] (transpose S384x128 [1, 0] (m ((c : Thread nD τ).loc main_arg4)) transposes_S128x384_S384x128_1_0) slices_S384x128_S128x128_0_0 := by
  dsimp only [V1, W1, hostOps0]; after_results <;> rfl

theorem V1_v16 (c : Dev nD) : (V1 m ρ c main_v16 : S128x128.Idx → EReal) = extractStridedSlice S128x128 ![128, 0] (transpose S384x128 [1, 0] (m ((c : Thread nD τ).loc main_arg4)) transposes_S128x384_S384x128_1_0) slices_S384x128_S128x128_128_0 := by
  dsimp only [V1, W1, hostOps0]; after_results <;> rfl

theorem V1_v17 (c : Dev nD) : (V1 m ρ c main_v17 : S128x128.Idx → EReal) = extractStridedSlice S128x128 ![256, 0] (transpose S384x128 [1, 0] (m ((c : Thread nD τ).loc main_arg4)) transposes_S128x384_S384x128_1_0) slices_S384x128_S128x128_256_0 := by
  dsimp only [V1, W1, hostOps0]; after_results <;> rfl

theorem V1_v18 (c : Dev nD) : (V1 m ρ c main_v18 : S1x128.Idx → EReal) = shapeCast S1x128 (m ((c : Thread nD τ).loc main_arg5)) shapeCasts_S128_S1x128 := by
  dsimp only [V1, W1, hostOps0]; after_results <;> rfl

/-! ## The edge messages -/

/-- The edge update of the arguments: the kernel program's first result. -/
def edgeOf (c : Dev nD) : S640000x128.Idx → EReal :=
  edgeArr (Host.gather gather_S40000x128_S640000x1_S640000x128_1_0_n_n_0_1_1128 (m ((c : Thread nD τ).loc main_arg0)) (broadcastInDim S640000x1 ![0] bcast_S640000_S640000x1_0 (select (cmpi .slt (m ((c : Thread nD τ).loc main_arg2)) (broadcastInDim S640000 ![] bcast_S_S640000 (constantI S_ 32 0#32))) (addi (m ((c : Thread nD τ).loc main_arg2)) (broadcastInDim S640000 ![] bcast_S_S640000 (constantI S_ 32 40000#32))) (m ((c : Thread nD τ).loc main_arg2))))) (Host.gather gather_S40000x128_S640000x1_S640000x128_1_0_n_n_0_1_1128 (m ((c : Thread nD τ).loc main_arg0)) (broadcastInDim S640000x1 ![0] bcast_S640000_S640000x1_0 (select (cmpi .slt (m ((c : Thread nD τ).loc main_arg3)) (broadcastInDim S640000 ![] bcast_S_S640000 (constantI S_ 32 0#32))) (addi (m ((c : Thread nD τ).loc main_arg3)) (broadcastInDim S640000 ![] bcast_S_S640000 (constantI S_ 32 40000#32))) (m ((c : Thread nD τ).loc main_arg3))))) (m ((c : Thread nD τ).loc main_arg1)) (m ((c : Thread nD τ).loc main_arg4)) (m ((c : Thread nD τ).loc main_arg5))

/-- The first region's output array, at its exit, is the edge update of the arguments. -/
theorem W2_v19 (c : Dev nD) : (W2 m ρ c (Proc.devRef .tc main_v19) : S640000x128.Idx → EReal) = edgeOf m c :=
  calc (W2 m ρ c (Proc.devRef .tc main_v19) : S640000x128.Idx → EReal)
    _ = (dat0 (F := Ideal) (V1 m ρ) c).arrAt 7 cfg0.N := W2_arr m ρ c 7
    _ = edgeBlocksArr (V1 m ρ c main_v6) (V1 m ρ c main_v13) (V1 m ρ c main_arg1) (V1 m ρ c main_v15) (V1 m ρ c main_v16) (V1 m ρ c main_v17) (V1 m ρ c main_v18) :=
        Cert.KernelIdeal.EdgeValue.final0 (V1 m ρ) c
    _ = edgeOf m c := by
        rw [V1_v6 m ρ c, V1_v13 m ρ c, V1_arg1 m ρ c, V1_v15 m ρ c, V1_v16 m ρ c, V1_v17 m ρ c, V1_v18 m ρ c]
        exact Cert.GraphMlp.Blocks.edge_blocks _ _ _ _ _

/-- It is still there at the end of the run: no later host operation and no window of the second region writes it. -/
theorem W4_v19 (c : Dev nD) : (W4 m ρ c (Proc.devRef .tc main_v19) : S640000x128.Idx → EReal) = edgeOf m c :=
  calc (W4 m ρ c (Proc.devRef .tc main_v19) : S640000x128.Idx → EReal)
    _ = W3 m ρ c (Proc.devRef .tc main_v19) := W4_of_ne m ρ c main_v19 (by decide)
    _ = W2 m ρ c (Proc.devRef .tc main_v19) := StableHlo.after_of_forall_not_mem (b := Proc.devRef .tc main_v19) _ _ (List.forall_iff_forall_mem.mp (by
        simp only [hostOps1, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = edgeOf m c := W2_v19 m ρ c

/-! ## What the second region stages -/

/-- The summed messages of every node: the edge messages scatter-added onto their destination rows. -/
def aggOf (c : Dev nD) : S40000x128.Idx → EReal :=
  Host.scatterAdd (F := Ideal) scatter_S40000x128_S640000x1_S640000x128_1_0_0_1 (broadcastInDim S40000x128 ![] bcast_S_S40000x128 (constant (F := Ideal) S_ .f32 0x00000000#32)) (broadcastInDim S640000x1 ![0] bcast_S640000_S640000x1_0 (m ((c : Thread nD τ).loc main_arg3))) (edgeOf m c)

/-- The in-degree of every node: ones scatter-added onto the destinations. -/
def degOf (c : Dev nD) : S40000.Idx → EReal :=
  Host.scatterAdd (F := Ideal) scatter_S40000_S640000x1_S640000_n_0_0_1 (broadcastInDim S40000 ![] bcast_S_S40000 (constant (F := Ideal) S_ .f32 0x00000000#32)) (broadcastInDim S640000x1 ![0] bcast_S640000_S640000x1_0 (m ((c : Thread nD τ).loc main_arg3))) (broadcastInDim S640000 ![] bcast_S_S640000 (constant (F := Ideal) S_ .f32 0x3F800000#32))

theorem V3_arg0 (c : Dev nD) : (V3 m ρ c main_arg0 : S40000x128.Idx → EReal) = m ((c : Thread nD τ).loc main_arg0) := by
  dsimp only [V3, W3, hostOps1]; after_results; exact W2_main_arg0 m ρ c

theorem V3_v22 (c : Dev nD) : (V3 m ρ c main_v22 : S40000x128.Idx → EReal) = aggOf m c := by
  dsimp only [V3, W3, hostOps1]; after_results; rw [W2_main_arg3 m ρ c, W2_v19 m ρ c]; rfl

theorem V3_v27 (c : Dev nD) : (V3 m ρ c main_v27 : S40000x1.Idx → EReal) = shapeCast S40000x1 (degOf m c) shapeCasts_S40000_S40000x1 := by
  dsimp only [V3, W3, hostOps1]; after_results; rw [W2_main_arg3 m ρ c]; rfl

theorem V3_v29 (c : Dev nD) : (V3 m ρ c main_v29 : S128x128.Idx → EReal) = extractStridedSlice S128x128 ![0, 0] (transpose S256x128 [1, 0] (m ((c : Thread nD τ).loc main_arg6)) transposes_S128x256_S256x128_1_0) slices_S256x128_S128x128_0_0 := by
  dsimp only [V3, W3, hostOps1]; after_results; rw [W2_main_arg6 m ρ c]

theorem V3_v30 (c : Dev nD) : (V3 m ρ c main_v30 : S128x128.Idx → EReal) = extractStridedSlice S128x128 ![128, 0] (transpose S256x128 [1, 0] (m ((c : Thread nD τ).loc main_arg6)) transposes_S128x256_S256x128_1_0) slices_S256x128_S128x128_128_0 := by
  dsimp only [V3, W3, hostOps1]; after_results; rw [W2_main_arg6 m ρ c]

theorem V3_v31 (c : Dev nD) : (V3 m ρ c main_v31 : S1x128.Idx → EReal) = shapeCast S1x128 (m ((c : Thread nD τ).loc main_arg7)) shapeCasts_S128_S1x128 := by
  dsimp only [V3, W3, hostOps1]; after_results; rw [W2_main_arg7 m ρ c]; rfl

/-! ## The node update -/

/-- The node update of the arguments: the kernel program's second result. -/
def nodeOf (c : Dev nD) : S40000x128.Idx → EReal :=
  nodeArr (m ((c : Thread nD τ).loc main_arg0)) (aggOf m c) (degOf m c) (m ((c : Thread nD τ).loc main_arg6)) (m ((c : Thread nD τ).loc main_arg7))

/-- The second region's output array after the run is the node update of the arguments. -/
theorem W4_v32 (c : Dev nD) : (W4 m ρ c (Proc.devRef .tc main_v32) : S40000x128.Idx → EReal) = nodeOf m c :=
  calc (W4 m ρ c (Proc.devRef .tc main_v32) : S40000x128.Idx → EReal)
    _ = (dat1 (F := Ideal) (V3 m ρ) c).arrAt 6 cfg1.N := W4_arr m ρ c 6
    _ = nodeBlocksArr (V3 m ρ c main_arg0) (V3 m ρ c main_v22) (V3 m ρ c main_v27) (V3 m ρ c main_v29) (V3 m ρ c main_v30) (V3 m ρ c main_v31) :=
        Cert.KernelIdeal.NodeValue.final1 (V3 m ρ) c
    _ = nodeOf m c := by
        rw [V3_arg0 m ρ c, V3_v22 m ρ c, V3_v27 m ρ c, V3_v29 m ρ c, V3_v30 m ρ c, V3_v31 m ρ c]
        exact Cert.GraphMlp.Blocks.node_blocks _ _ _ _ _

end Cert.KernelIdeal.HostReads

end
-- ==== Proof.RefEdge.lean ====
/-
  The reference's edge term is the specification's edge update.

  The reference joins, for every edge, the source node's row, the destination node's row and the edge's own row into
  one row of 384 columns, multiplies it by the transpose of the weight `W : [128, 384]` and adds the bias spread over
  the edges. Read at edge `p` and feature `q` this is Σ_{c<384} J(p,c)·W(q,c) + b(q). The sum over the 384 joined
  columns is cut at the two joins (384 = 128 + 128 + 128), and in each third the joined row at column `off + k` is the
  piece's entry `(p, k)`. That is `edgeAt`.
-/
import proofs.«138721_j53025666236778_1_alg».proof.Proof.Spec
import proofs.«138721_j53025666236778_1_alg».proof.Proof.RefRead
import Mathlib.Algebra.BigOperators.Fin

noncomputable section

open scoped BigOperators

namespace Cert.GraphMlp.Ref

open Cert.ReferenceIdeal Cert.ReferenceIdeal.ReadP Cert.GraphMlp Idealize.ShloMosaic Idealize.ShloMosaic.ValueIdx

/-! ## A sum over 384 columns, cut at 128 and 256 -/

/-- 384 = 128 + 128 + 128: a sum over the joined columns is the sum of the three pieces' sums. -/
theorem sum_three (f : Fin 384 → EReal) :
    ∑ k, f k = (∑ k : Fin 128, f (col 0 (by decide) k)) + (∑ k : Fin 128, f (col 128 (by decide) k))
      + ∑ k : Fin 128, f (col 256 (by decide) k) := by
  have h1 : ∑ k : Fin (256 + 128), f k
      = (∑ k : Fin 256, f (Fin.castAdd 128 k)) + ∑ k : Fin 128, f (Fin.natAdd 256 k) :=
    Fin.sum_univ_add (fun k : Fin (256 + 128) => f k)
  have h2 : ∑ k : Fin (128 + 128), f (Fin.castAdd 128 k)
      = (∑ k : Fin 128, f (Fin.castAdd 128 (Fin.castAdd 128 k))) + ∑ k : Fin 128, f (Fin.castAdd 128 (Fin.natAdd 128 k)) :=
    Fin.sum_univ_add (fun k : Fin (128 + 128) => f (Fin.castAdd 128 k))
  have e0 : ∀ k : Fin 128, (Fin.castAdd 128 (Fin.castAdd 128 k) : Fin 384) = col 0 (by decide) k := fun k =>
    Fin.ext (by show k.val = 0 + k.val; omega)
  have e1 : ∀ k : Fin 128, (Fin.castAdd 128 (Fin.natAdd 128 k) : Fin 384) = col 128 (by decide) k := fun k =>
    Fin.ext rfl
  have e2 : ∀ k : Fin 128, (Fin.natAdd 256 k : Fin 384) = col 256 (by decide) k := fun k => Fin.ext rfl
  refine h1.trans ?_
  rw [h2]
  simp only [e0, e1, e2]

/-! ## The index maps of the product, the transpose and the bias, at an index given by its coordinates -/

theorem lidx_eq (p : Fin 640000) (q : Fin 128) (c : Fin 384) : lidx_main_v16 (ix2 p q) c = ix2 p c := by
  funext a; match a with | ⟨0, _⟩ => rfl | ⟨1, _⟩ => rfl

theorem ridx_eq (p : Fin 640000) (q : Fin 128) (c : Fin 384) : ridx_main_v16 (ix2 p q) c = ix2 c q := by
  funext a; match a with | ⟨0, _⟩ => rfl | ⟨1, _⟩ => rfl

theorem tidx_eq (q : Fin 128) (c : Fin 384) : idx_main_v15 (ix2 c q) = ix2 q c := by
  funext a; match a with | ⟨0, _⟩ => rfl | ⟨1, _⟩ => rfl

theorem bidx_eq (p : Fin 640000) (q : Fin 128) : idx_main_v17 (idx_main_v18 (ix2 p q)) = ix1 q := by
  funext a; match a with | ⟨0, _⟩ => rfl

/-- One term of the product: the joined row at `(p, c)` times the weight at `(q, c)`. -/
theorem term_at (X : S640000x384.Idx → EReal) (x4 : (⟨S128x384, .f32⟩ : BufTy).Contents (Elt Ideal))
    (p : Fin 640000) (q : Fin 128) (c : Fin 384) :
    X (lidx_main_v16 (ix2 p q) c) * val_main_v15 (F := Ideal) x4 (ridx_main_v16 (ix2 p q) c)
      = X (ix2 p c) * x4 (ix2 q c) := by
  rw [val_main_v15_apply, lidx_eq, ridx_eq, tidx_eq]

/-! ## The joined row, read in each of its three pieces -/

section Join
variable {α : Type} (y₀ y₁ y₂ : S640000x128.Idx → α)
  (h : Shape.Concatenates [S640000x128, S640000x128, S640000x128] S640000x384 1)

/-- Column `off + k` of the joined row is entry `(p, k)` of the piece that starts at `off`. -/
theorem join_at_0 (p : Fin 640000) (k : Fin 128) :
    concatenate S640000x384 1 [⟨S640000x128, y₀⟩, ⟨S640000x128, y₁⟩, ⟨S640000x128, y₂⟩] h
      (ix2 p (col 0 (by decide) k)) = y₀ (ix2 p k) :=
  concatenate_apply_piece (t := S640000x384) 1 [⟨S640000x128, y₀⟩, ⟨S640000x128, y₁⟩, ⟨S640000x128, y₂⟩] h _ 0 (show (0 : Nat) < 3 by decide) S640000x128 y₀ rfl rfl 0 rfl (ix2 p k)
    (fun b hb => match b, hb with | ⟨0, _⟩, _ => rfl | ⟨1, _⟩, hb => absurd rfl hb) rfl

theorem join_at_1 (p : Fin 640000) (k : Fin 128) :
    concatenate S640000x384 1 [⟨S640000x128, y₀⟩, ⟨S640000x128, y₁⟩, ⟨S640000x128, y₂⟩] h
      (ix2 p (col 128 (by decide) k)) = y₁ (ix2 p k) :=
  concatenate_apply_piece (t := S640000x384) 1 [⟨S640000x128, y₀⟩, ⟨S640000x128, y₁⟩, ⟨S640000x128, y₂⟩] h _ 1 (show (1 : Nat) < 3 by decide) S640000x128 y₁ rfl rfl 128 rfl (ix2 p k)
    (fun b hb => match b, hb with | ⟨0, _⟩, _ => rfl | ⟨1, _⟩, hb => absurd rfl hb) rfl

theorem join_at_2 (p : Fin 640000) (k : Fin 128) :
    concatenate S640000x384 1 [⟨S640000x128, y₀⟩, ⟨S640000x128, y₁⟩, ⟨S640000x128, y₂⟩] h
      (ix2 p (col 256 (by decide) k)) = y₂ (ix2 p k) :=
  concatenate_apply_piece (t := S640000x384) 1 [⟨S640000x128, y₀⟩, ⟨S640000x128, y₁⟩, ⟨S640000x128, y₂⟩] h _ 2 (show (2 : Nat) < 3 by decide) S640000x128 y₂ rfl rfl 256 rfl (ix2 p k)
    (fun b hb => match b, hb with | ⟨0, _⟩, _ => rfl | ⟨1, _⟩, hb => absurd rfl hb) rfl

end Join

/-! ## The reference's edge term -/

section Edge
variable (x0 : (⟨S40000x128, .f32⟩ : BufTy).Contents (Elt Ideal)) (x1 : (⟨S640000x128, .f32⟩ : BufTy).Contents (Elt Ideal))
  (x2 x3 : (⟨S640000, .i32⟩ : BufTy).Contents (Elt Ideal)) (x4 : (⟨S128x384, .f32⟩ : BufTy).Contents (Elt Ideal))
  (x5 : (⟨S128, .f32⟩ : BufTy).Contents (Elt Ideal))

/-- The reference's edge term at edge `p`, feature `q`, is the edge update there. -/
theorem ref_edge_at (p : Fin 640000) (q : Fin 128) :
    val_main_v19 (F := Ideal) x0 x1 x2 x3 x4 x5 (ix2 p q)
      = edgeAt (val_main_v6 (F := Ideal) x0 x2) (val_main_v13 (F := Ideal) x0 x3) x1 x4 x5 p q := by
  rw [val_main_v19_apply, val_main_v16_apply, val_main_v18_apply, val_main_v17_apply, bidx_eq,
    Finset.sum_congr rfl (fun k _ => term_at (val_main_v14 (F := Ideal) x0 x1 x2 x3) x4 p q k), sum_three]
  unfold val_main_v14 edgeAt
  generalize val_main_v6 (F := Ideal) x0 x2 = S
  generalize val_main_v13 (F := Ideal) x0 x3 = D
  simp only [join_at_0, join_at_1, join_at_2]
  rfl

/-- The reference's edge term is the edge update, as arrays. -/
theorem ref_edge :
    val_main_v19 (F := Ideal) x0 x1 x2 x3 x4 x5
      = edgeArr (val_main_v6 (F := Ideal) x0 x2) (val_main_v13 (F := Ideal) x0 x3) x1 x4 x5 := by
  funext j
  obtain ⟨p, q, rfl⟩ : ∃ (p : Fin 640000) (q : Fin 128), j = ix2 p q := ⟨j 0, j 1, eq_ix2 j⟩
  exact ref_edge_at x0 x1 x2 x3 x4 x5 p q

end Edge

end Cert.GraphMlp.Ref

end
-- ==== Proof.RefNode.lean ====
/-
  The reference's node term is the specification's node update.

  The reference joins each node's own row with its mean message into a row of 256 columns, multiplies by the
  transpose of the weight `W : [128, 256]` and adds the bias. Read at node `p` and feature `q` this is a sum over
  the 256 joined columns; cut at the join it is the sum over the node's own 128 features plus the sum over the 128
  features of the mean message, where the mean message is the summed messages over `max (deg p) 1` when
  `deg p > 0` and 0 otherwise.
-/
import proofs.«138721_j53025666236778_1_alg».proof.Proof.Spec
import proofs.«138721_j53025666236778_1_alg».proof.Proof.RefRead

noncomputable section

open scoped BigOperators

namespace Cert.GraphMlp.Ref

open Cert.ReferenceIdeal Cert.ReferenceIdeal.ReadP Cert.GraphMlp Idealize.ShloMosaic Idealize.ShloMosaic.ValueIdx

/-- The pattern of the float 1.0 is the extended real 1. -/
theorem ofBits_one_f32 : Ideal.ofBits .f32 0x3F800000#32 = 1 := by
  simp [Ideal.ofBits, Ideal.ieee, -EReal.coe_mul]; norm_num

/-- A sum over 256 columns is the sum over the first 128 plus the sum over the last 128. -/
theorem sum_two (f : Fin 256 → EReal) :
    ∑ k, f k = (∑ k : Fin 128, f (col 0 (by decide) k)) + ∑ k : Fin 128, f (col 128 (by decide) k) := by
  refine (Fin.sum_univ_add (a := 128) (b := 128) f).trans ?_
  congr 1

/-- The mean message written with the program's operations: a select on the comparison `deg > 0` between the
    quotient by `max deg 1` and 0. -/
theorem select_mean (a d : EReal) :
    Scalar.select (FloatOps.cmpf (F := Ideal) .ogt (d : Ideal .f32) (FloatOps.ofBits .f32 0x00000000#32))
        (FloatOps.hostDivf (F := Ideal) (φ := .f32) a (FloatOps.maximumf (F := Ideal) (φ := .f32) d (FloatOps.ofBits .f32 0x3F800000#32)))
        (FloatOps.ofBits (F := Ideal) .f32 0x00000000#32)
      = if 0 < d then Ideal.div a (max d 1) else 0 := by
  show Scalar.select (Ideal.cmp .ogt d (Ideal.ofBits .f32 0x00000000#32))
        (Ideal.div a (max d (Ideal.ofBits .f32 0x3F800000#32))) (Ideal.ofBits .f32 0x00000000#32) = _
  rw [Ideal.ofBits_zero_f32, ofBits_one_f32]
  unfold Ideal.cmp
  by_cases h : 0 < d
  · rw [if_pos h]
    have : BitVec.ofBool (decide (0 < d)) = 1#1 := by rw [decide_eq_true h]; rfl
    rw [this, select_one]
  · rw [if_neg h]
    have : BitVec.ofBool (decide (0 < d)) = 0#1 := by rw [decide_eq_false h]; rfl
    rw [this, select_zero]

/-- The reference's mean message at node `p`, feature `k`, is the specification's. -/
theorem v35_at (x0 : (⟨S40000x128, .f32⟩ : BufTy).Contents (Elt Ideal)) (x1 : (⟨S640000x128, .f32⟩ : BufTy).Contents (Elt Ideal)) (x2 x3 : (⟨S640000, .i32⟩ : BufTy).Contents (Elt Ideal)) (x4 : (⟨S128x384, .f32⟩ : BufTy).Contents (Elt Ideal)) (x5 : (⟨S128, .f32⟩ : BufTy).Contents (Elt Ideal)) (p : Fin 40000) (k : Fin 128) :
    val_main_v35 (F := Ideal) x0 x1 x2 x3 x4 x5 (ix2 p k)
      = meanAt (val_main_v22 (F := Ideal) x0 x1 x2 x3 x4 x5) (val_main_v26 (F := Ideal) x3) p k := by
  rw [val_main_v35_apply, val_main_call0_v1_apply, val_main_v29_apply, val_main_v27_apply, val_main_v28_apply,
    val_main_cst_5_apply, val_main_v34_apply, val_main_v33_apply, val_main_v32_apply, val_main_v31_apply,
    val_main_v30_apply, val_main_cst_6_apply, val_main_call0_v2_apply, val_main_call0_v0_apply, val_main_cst_7_apply]
  have e1 : idx_main_v27 (idx_main_call0_v1 (ix2 p k)) = ix1 p := by
    funext a; match a with | ⟨0, _⟩ => rfl
  have e2 : idx_main_v32 (idx_main_v33 (ix2 p k)) = ix1 p := by
    funext a; match a with | ⟨0, _⟩ => rfl
  rw [e1, e2]
  generalize val_main_v22 (F := Ideal) x0 x1 x2 x3 x4 x5 = A
  generalize val_main_v26 (F := Ideal) x3 = deg
  exact select_mean (A (ix2 p k)) (deg (ix1 p))

/-- The joined row's first 128 columns are the node's own features. -/
theorem v36_left (x0 : (⟨S40000x128, .f32⟩ : BufTy).Contents (Elt Ideal)) (x1 : (⟨S640000x128, .f32⟩ : BufTy).Contents (Elt Ideal)) (x2 x3 : (⟨S640000, .i32⟩ : BufTy).Contents (Elt Ideal)) (x4 : (⟨S128x384, .f32⟩ : BufTy).Contents (Elt Ideal)) (x5 : (⟨S128, .f32⟩ : BufTy).Contents (Elt Ideal)) (p : Fin 40000) (q k : Fin 128) :
    val_main_v36 (F := Ideal) x0 x1 x2 x3 x4 x5 (lidx_main_v38 (ix2 p q) (col 0 (by decide) k)) = x0 (ix2 p k) := by
  unfold val_main_v36
  generalize val_main_v35 (F := Ideal) x0 x1 x2 x3 x4 x5 = y
  refine concatenate_pair_apply_left (1 : Fin S40000x256.rank) x0 y Gen.concatenates_S40000x128_S40000x128_S40000x256_d1 _ rfl
    (ix2 p k) (fun b => ?_)
  match b with
  | ⟨0, _⟩ => rfl
  | ⟨1, _⟩ => exact (Nat.zero_add k.val).symm

/-- The joined row's last 128 columns are the mean message. -/
theorem v36_right (x0 : (⟨S40000x128, .f32⟩ : BufTy).Contents (Elt Ideal)) (x1 : (⟨S640000x128, .f32⟩ : BufTy).Contents (Elt Ideal)) (x2 x3 : (⟨S640000, .i32⟩ : BufTy).Contents (Elt Ideal)) (x4 : (⟨S128x384, .f32⟩ : BufTy).Contents (Elt Ideal)) (x5 : (⟨S128, .f32⟩ : BufTy).Contents (Elt Ideal)) (p : Fin 40000) (q k : Fin 128) :
    val_main_v36 (F := Ideal) x0 x1 x2 x3 x4 x5 (lidx_main_v38 (ix2 p q) (col 128 (by decide) k))
      = val_main_v35 (F := Ideal) x0 x1 x2 x3 x4 x5 (ix2 p k) := by
  unfold val_main_v36
  generalize val_main_v35 (F := Ideal) x0 x1 x2 x3 x4 x5 = y
  refine concatenate_pair_apply_right (1 : Fin S40000x256.rank) x0 y Gen.concatenates_S40000x128_S40000x128_S40000x256_d1 _ rfl rfl
    (ix2 p k) (fun b hb => ?_) ?_
  · match b with
    | ⟨0, _⟩ => rfl
    | ⟨1, _⟩ => exact absurd rfl hb
  · exact Nat.add_comm k.val 128

/-- The transposed weight at joined column `c`, feature `q`, is the weight at `(q, c)`. -/
theorem v37_at (x6 : (⟨S128x256, .f32⟩ : BufTy).Contents (Elt Ideal)) (p : Fin 40000) (q : Fin 128) (c : Fin 256) :
    val_main_v37 (F := Ideal) x6 (ridx_main_v38 (ix2 p q) c) = x6 (ix2 q c) := by
  rw [val_main_v37_apply]
  congr 1
  funext a
  match a with
  | ⟨0, _⟩ => rfl
  | ⟨1, _⟩ => rfl

/-- The reference's node term at node `p`, feature `q`. -/
theorem ref_node_at (x0 : (⟨S40000x128, .f32⟩ : BufTy).Contents (Elt Ideal)) (x1 : (⟨S640000x128, .f32⟩ : BufTy).Contents (Elt Ideal)) (x2 x3 : (⟨S640000, .i32⟩ : BufTy).Contents (Elt Ideal)) (x4 : (⟨S128x384, .f32⟩ : BufTy).Contents (Elt Ideal)) (x5 : (⟨S128, .f32⟩ : BufTy).Contents (Elt Ideal)) (x6 : (⟨S128x256, .f32⟩ : BufTy).Contents (Elt Ideal)) (x7 : (⟨S128, .f32⟩ : BufTy).Contents (Elt Ideal)) (p : Fin 40000) (q : Fin 128) :
    val_main_v41 (F := Ideal) x0 x1 x2 x3 x4 x5 x6 x7 (ix2 p q)
      = nodeAt x0 (val_main_v22 (F := Ideal) x0 x1 x2 x3 x4 x5) (val_main_v26 (F := Ideal) x3) x6 x7 p q := by
  rw [val_main_v41_apply, val_main_v38_apply, val_main_v40_apply, val_main_v39_apply, sum_two]
  have eb : idx_main_v39 (idx_main_v40 (ix2 p q)) = ix1 q := by
    funext a; match a with | ⟨0, _⟩ => rfl
  rw [eb]
  have h1 : (∑ k : Fin 128, val_main_v36 (F := Ideal) x0 x1 x2 x3 x4 x5 (lidx_main_v38 (ix2 p q) (col 0 (by decide) k))
        * val_main_v37 (F := Ideal) x6 (ridx_main_v38 (ix2 p q) (col 0 (by decide) k)))
      = ∑ k : Fin 128, x0 (ix2 p k) * x6 (ix2 q (col 0 (by decide) k)) :=
    Finset.sum_congr rfl fun k _ => by rw [v36_left, v37_at]
  have h2 : (∑ k : Fin 128, val_main_v36 (F := Ideal) x0 x1 x2 x3 x4 x5 (lidx_main_v38 (ix2 p q) (col 128 (by decide) k))
        * val_main_v37 (F := Ideal) x6 (ridx_main_v38 (ix2 p q) (col 128 (by decide) k)))
      = ∑ k : Fin 128, meanAt (val_main_v22 (F := Ideal) x0 x1 x2 x3 x4 x5) (val_main_v26 (F := Ideal) x3) p k
          * x6 (ix2 q (col 128 (by decide) k)) :=
    Finset.sum_congr rfl fun k _ => by rw [v36_right, v35_at, v37_at]
  rw [h1, h2]
  rfl

theorem ref_node (x0 : (⟨S40000x128, .f32⟩ : BufTy).Contents (Elt Ideal)) (x1 : (⟨S640000x128, .f32⟩ : BufTy).Contents (Elt Ideal)) (x2 x3 : (⟨S640000, .i32⟩ : BufTy).Contents (Elt Ideal)) (x4 : (⟨S128x384, .f32⟩ : BufTy).Contents (Elt Ideal)) (x5 : (⟨S128, .f32⟩ : BufTy).Contents (Elt Ideal)) (x6 : (⟨S128x256, .f32⟩ : BufTy).Contents (Elt Ideal)) (x7 : (⟨S128, .f32⟩ : BufTy).Contents (Elt Ideal)) :
    val_main_v41 (F := Ideal) x0 x1 x2 x3 x4 x5 x6 x7 = nodeArr x0 (val_main_v22 (F := Ideal) x0 x1 x2 x3 x4 x5) (val_main_v26 (F := Ideal) x3) x6 x7 := by
  funext j
  obtain ⟨p, q, rfl⟩ : ∃ (p : Fin 40000) (q : Fin 128), j = ix2 p q := ⟨j 0, j 1, eq_ix2 j⟩
  exact ref_node_at x0 x1 x2 x3 x4 x5 x6 x7 p q

end Cert.GraphMlp.Ref

end
-- ==== Proof.lean ====
/-
  The certificate of one message-passing layer over a graph of 40000 nodes and 640000 edges: the Pallas program
  (two pallas_calls among host gathers and scatter-adds) against its jnp reference, as extended reals.

  Both programs compute, for every edge, the joined row [node[src] | node[dst] | edge] against the transposed edge
  weight plus a bias; sum the edge messages and the constant 1 onto the destination nodes; take the mean (the sum over
  `max (deg, 1)` where `deg > 0`, else 0); and compute, for every node, the joined row [node | mean] against the
  transposed node weight plus a bias. The kernel cuts each weight into [128,128] blocks and adds the blocks' matrix
  products (a regrouping of one finite sum: only commutativity and associativity of + on the extended reals), and takes
  the mean as the product with the reciprocal `1 / max (deg, 1)` or with 0 (for a divisor that is not 0 the quotient
  IS that product, and `x · 0 = 0` for every extended real `x`): no finiteness of the inputs is used.

  The gathers and the scatter-adds are the same operations of the same arguments in both programs and stay unopened:
  the edge messages are proved equal as arrays first, and the summed messages are then the same scatter-add of equal
  arrays.

  `frame_Kernel` and `frame_KernelIdeal` are the generated frames; `frame_ReferenceIdeal` is the reference's run with
  the results dropped; `preserves` is `True` (the ideal pass rewrote nothing).
-/
import proofs.«138721_j53025666236778_1_alg».proof.Defs
import proofs.«138721_j53025666236778_1_alg».proof.Proof.Gen.Kernel
import proofs.«138721_j53025666236778_1_alg».proof.Proof.Gen.Kernel.Frame
import proofs.«138721_j53025666236778_1_alg».proof.Proof.Gen.KernelIdeal
import proofs.«138721_j53025666236778_1_alg».proof.Proof.Gen.KernelIdeal.Frame
import proofs.«138721_j53025666236778_1_alg».proof.Proof.Gen.ReferenceIdeal
import proofs.«138721_j53025666236778_1_alg».proof.Proof.Gen.Pre_finite_inputs
import proofs.«138721_j53025666236778_1_alg».proof.Proof.KernelRun
import proofs.«138721_j53025666236778_1_alg».proof.Proof.KHost
import proofs.«138721_j53025666236778_1_alg».proof.Proof.RefRun
import proofs.«138721_j53025666236778_1_alg».proof.Proof.RefRead
import proofs.«138721_j53025666236778_1_alg».proof.Proof.RefEdge
import proofs.«138721_j53025666236778_1_alg».proof.Proof.RefNode
import Idealize.ShloMosaic.Adequacy
import Idealize.ShloMosaic.Init

set_option maxRecDepth 16384

noncomputable section

namespace Cert.Proof

open Idealize.ShloMosaic Idealize.SL.Sem Cert.GraphMlp

/-! ## The kernel program's host terms are the reference's stages -/

section Cross

open Cert.ReferenceIdeal Cert.ReferenceIdeal.ReadP

variable (m : (ℓ : Loc Cert.KernelIdeal.nD Cert.KernelIdeal.τ Cert.KernelIdeal.sig) → Buf (Elt Ideal) ℓ)

/-- The edge messages: the kernel program's edge update of its arguments is the reference's edge stage of the same
    arrays (the same gathers of the same wrapped indices, spelt in the other program's vocabulary). -/
theorem edge_cross (c : Dev Cert.KernelIdeal.nD) :
    val_main_v19 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      = Cert.KernelIdeal.HostReads.edgeOf m c := by
  rw [Cert.GraphMlp.Ref.ref_edge]
  rfl

/-- The node update likewise: the reference's summed messages are the scatter-add of its edge stage, which is the
    kernel program's edge update; the degree is the same scatter-add of ones. -/
theorem node_cross (c : Dev Cert.KernelIdeal.nD) :
    val_main_v41 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      = Cert.KernelIdeal.HostReads.nodeOf m c := by
  rw [Cert.GraphMlp.Ref.ref_node]
  unfold Cert.KernelIdeal.HostReads.nodeOf Cert.KernelIdeal.HostReads.aggOf
  rw [← edge_cross m c]
  rfl

end Cross

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.ValueP.run (F := Ideal) m ρ)

theorem preserves : Cert.preserves_Kernel_KernelIdeal := trivial

/-- Both programs end with the node update and the edge update of the (agreeing) arguments. -/
theorem algebraic : Cert.algebraic_KernelIdeal_ReferenceIdeal := by
  intro m ρ m' ρ' _ hagree
  refine ⟨fun c => Cert.KernelIdeal.HostReads.nodeOf m c, fun c => Cert.KernelIdeal.HostReads.edgeOf m c, ?_, ?_⟩
  · exact (θ_run Cert.KernelIdeal.defs _ _).mono
      (fun r h c => ⟨(h c).1.trans (Cert.KernelIdeal.HostReads.W4_v32 m ρ c),
        (h c).2.1.trans (Cert.KernelIdeal.HostReads.W4_v19 m ρ c), (h c).2.2⟩)
      (Cert.KernelIdeal.GenRun.run_results m ρ)
  · refine (θ_run Cert.ReferenceIdeal.defs _ _).mono (fun r h c => ⟨(h c).1.trans ?_, (h c).2.1.trans ?_, (h c).2.2⟩)
      (Cert.ReferenceIdeal.ValueP.run (F := Ideal) m' ρ')
    · obtain ⟨h0, h1, h2, h3, h4, h5, h6, h7⟩ := hagree c
      rw [Cert.ReferenceIdeal.ReadP.val_main_v41_eq, h0, h1, h2, h3, h4, h5, h6, h7]
      exact node_cross m c
    · obtain ⟨h0, h1, h2, h3, h4, h5, h6, h7⟩ := hagree c
      rw [Cert.ReferenceIdeal.ReadP.val_main_v19_eq, h0, h1, h2, h3, h4, h5]
      exact edge_cross m c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
